-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x65536x1 : Shape := ⟨3, ![128, 65536, 1]⟩
abbrev S8x1 : Shape := ⟨2, ![8, 1]⟩
abbrev S8 : Shape := ⟨1, ![8]⟩
abbrev S_ : Shape := ⟨0, ![]⟩

class Facts : Prop where
  bcast_S_S128x65536x1 : S_.BroadcastsInDim S128x65536x1 (![] : Fin 0 → Fin S128x65536x1.rank)
  reducesTo_S128x65536x1_S_d0_1_2 : S128x65536x1.ReducesTo [0, 1, 2] S_
  h_S_ : 0 < S_.numel
  bcast_S_S8x1 : S_.BroadcastsInDim S8x1 (![] : Fin 0 → Fin S8x1.rank)
  reducesTo_S8x1_S_d0_1 : S8x1.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg0 : IVec S128x65536x1 32) (main_arg8 : FVec F S8 .f32) (main_v33 : IVec S_ 1) : IVec S_ 1 :=
  let main_v34 : FVec F S8 .f32 := Host.absf main_arg8
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_c_14 : IVec S_ 32 := constantI S_ 32 0#32
  let main_v39 : IVec S128x65536x1 32 := broadcastInDim S128x65536x1 ![] bcast_S_S128x65536x1 main_c_14
  let main_v40 : IVec S128x65536x1 1 := cmpi .sge main_arg0 main_v39
  let main_c_15 : IVec S_ 1 := constantI S_ 1 1#1
  let main_v41 : IVec S_ 1 := (fun x v => Host.reduce IntOp.andi x v reducesTo_S128x65536x1_S_d0_1_2 h_S_) main_v40 main_c_15
  let main_v42 : IVec S_ 1 := andi main_v38 main_v41
  let main_c_16 : IVec S_ 32 := constantI S_ 32 8#32
  let main_v43 : IVec S128x65536x1 32 := broadcastInDim S128x65536x1 ![] bcast_S_S128x65536x1 main_c_16
  let main_v44 : IVec S128x65536x1 1 := cmpi .slt main_arg0 main_v43
  let main_c_17 : IVec S_ 1 := constantI S_ 1 1#1
  let main_v45 : IVec S_ 1 := (fun x v => Host.reduce IntOp.andi x v reducesTo_S128x65536x1_S_d0_1_2 h_S_) main_v44 main_c_17
  let main_v46 : IVec S_ 1 := andi main_v42 main_v45
  main_v46

def fn_part1 {F : FTy → Type} [FloatOps F] (main_arg0 : IVec S128x65536x1 32) (main_arg5 : FVec F S8x1 .f32) (main_arg6 : FVec F S8 .f32) (main_arg7 : FVec F S8x1 .f32) (main_arg8 : FVec F S8 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S8x1 .f32 := Host.absf main_arg5
  let main_cst_6 : FVec F S_ .f32 := constant S_ .f32 0x7F800000#32
  let main_v20 : FVec F S8x1 .f32 := broadcastInDim S8x1 ![] bcast_S_S8x1 main_cst_6
  let main_v21 : IVec S8x1 1 := cmpf .olt main_v19 main_v20
  let main_c_7 : IVec S_ 1 := constantI S_ 1 1#1
  let main_v22 : IVec S_ 1 := (fun x v => Host.reduce IntOp.andi x v reducesTo_S8x1_S_d0_1 h_S_) main_v21 main_c_7
  let main_v23 : IVec S_ 1 := andi main_v18 main_v22
  let main_v24 : FVec F S8 .f32 := Host.absf main_arg6
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S8x1 .f32 := Host.absf main_arg7
  let main_cst_10 : FVec F S_ .f32 := constant S_ .f32 0x7F800000#32
  let main_v30 : FVec F S8x1 .f32 := broadcastInDim S8x1 ![] bcast_S_S8x1 main_cst_10
  let main_v31 : IVec S8x1 1 := cmpf .olt main_v29 main_v30
  let main_c_11 : IVec S_ 1 := constantI S_ 1 1#1
  let main_v32 : IVec S_ 1 := (fun x v => Host.reduce IntOp.andi x v reducesTo_S8x1_S_d0_1 h_S_) main_v31 main_c_11
  let main_v33 : IVec S_ 1 := andi main_v28 main_v32
  fn_part2 (F := F) main_arg0 main_arg8 main_v33

def fn {F : FTy → Type} [FloatOps F] (main_arg0 : IVec S128x65536x1 32) (main_arg1 : FVec F S128x65536x1 .f32) (main_arg2 : FVec F S128x65536x1 .f32) (main_arg3 : FVec F S8x1 .f32) (main_arg4 : FVec F S8 .f32) (main_arg5 : FVec F S8x1 .f32) (main_arg6 : FVec F S8 .f32) (main_arg7 : FVec F S8x1 .f32) (main_arg8 : FVec F S8 .f32) : IVec S_ 1 :=
  let main_v0 : FVec F S128x65536x1 .f32 := Host.absf main_arg1
  let main_cst : FVec F S_ .f32 := constant S_ .f32 0x7F800000#32
  let main_v1 : FVec F S128x65536x1 .f32 := broadcastInDim S128x65536x1 ![] bcast_S_S128x65536x1 main_cst
  let main_v2 : IVec S128x65536x1 1 := cmpf .olt main_v0 main_v1
  let main_c : IVec S_ 1 := constantI S_ 1 1#1
  let main_v3 : IVec S_ 1 := (fun x v => Host.reduce IntOp.andi x v reducesTo_S128x65536x1_S_d0_1_2 h_S_) main_v2 main_c
  let main_v4 : FVec F S128x65536x1 .f32 := Host.absf main_arg2
  let main_cst_0 : FVec F S_ .f32 := constant S_ .f32 0x7F800000#32
  let main_v5 : FVec F S128x65536x1 .f32 := broadcastInDim S128x65536x1 ![] bcast_S_S128x65536x1 main_cst_0
  let main_v6 : IVec S128x65536x1 1 := cmpf .olt main_v4 main_v5
  let main_c_1 : IVec S_ 1 := constantI S_ 1 1#1
  let main_v7 : IVec S_ 1 := (fun x v => Host.reduce IntOp.andi x v reducesTo_S128x65536x1_S_d0_1_2 h_S_) main_v6 main_c_1
  let main_v8 : IVec S_ 1 := andi main_v3 main_v7
  let main_v9 : FVec F S8x1 .f32 := Host.absf main_arg3
  let main_cst_2 : FVec F S_ .f32 := constant S_ .f32 0x7F800000#32
  let main_v10 : FVec F S8x1 .f32 := broadcastInDim S8x1 ![] bcast_S_S8x1 main_cst_2
  let main_v11 : IVec S8x1 1 := cmpf .olt main_v9 main_v10
  let main_c_3 : IVec S_ 1 := constantI S_ 1 1#1
  let main_v12 : IVec S_ 1 := (fun x v => Host.reduce IntOp.andi x v reducesTo_S8x1_S_d0_1 h_S_) main_v11 main_c_3
  let main_v13 : IVec S_ 1 := andi main_v8 main_v12
  let main_v14 : FVec F S8 .f32 := Host.absf main_arg4
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg0 main_arg5 main_arg6 main_arg7 main_arg8 main_v13 main_v16
-- ==== Kernel.lean ====
abbrev S128x65536x1 : Shape := ⟨3, ![128, 65536, 1]⟩
abbrev S8x1 : Shape := ⟨2, ![8, 1]⟩
abbrev S8 : Shape := ⟨1, ![8]⟩
abbrev S128x65536 : Shape := ⟨2, ![128, 65536]⟩
abbrev S128x8192 : Shape := ⟨2, ![128, 8192]⟩
abbrev S1x1 : Shape := ⟨2, ![1, 1]⟩
abbrev S1 : Shape := ⟨1, ![1]⟩

abbrev nBuf : Space → Nat
  | .hbm => 14
  | .vmem => 14
  | .smem => 0
  | _ => 0

abbrev bufTy : (tb : Table) → Fin (tcTables nBuf tb) → BufTy
  | .hbm, ⟨0, _⟩ => ⟨S128x65536x1, .i32⟩
  | .hbm, ⟨1, _⟩ => ⟨S128x65536x1, .f32⟩
  | .hbm, ⟨2, _⟩ => ⟨S128x65536x1, .f32⟩
  | .hbm, ⟨3, _⟩ => ⟨S8x1, .f32⟩
  | .hbm, ⟨4, _⟩ => ⟨S8, .f32⟩
  | .hbm, ⟨5, _⟩ => ⟨S8x1, .f32⟩
  | .hbm, ⟨6, _⟩ => ⟨S8, .f32⟩
  | .hbm, ⟨7, _⟩ => ⟨S8x1, .f32⟩
  | .hbm, ⟨8, _⟩ => ⟨S8, .f32⟩
  | .hbm, ⟨9, _⟩ => ⟨S128x65536, .i32⟩
  | .hbm, ⟨10, _⟩ => ⟨S128x65536, .f32⟩
  | .hbm, ⟨11, _⟩ => ⟨S128x65536, .f32⟩
  | .hbm, ⟨12, _⟩ => ⟨S128x65536, .f32⟩
  | .hbm, ⟨13, _⟩ => ⟨S128x65536x1, .f32⟩
  | .local _ .vmem, ⟨0, _⟩ => ⟨S128x8192, .i32⟩
  | .local _ .vmem, ⟨1, _⟩ => ⟨S128x8192, .i32⟩
  | .local _ .vmem, ⟨2, _⟩ => ⟨S128x8192, .f32⟩
  | .local _ .vmem, ⟨3, _⟩ => ⟨S128x8192, .f32⟩
  | .local _ .vmem, ⟨4, _⟩ => ⟨S128x8192, .f32⟩
  | .local _ .vmem, ⟨5, _⟩ => ⟨S128x8192, .f32⟩
  | .local _ .vmem, ⟨6, _⟩ => ⟨S8x1, .f32⟩
  | .local _ .vmem, ⟨7, _⟩ => ⟨S8, .f32⟩
  | .local _ .vmem, ⟨8, _⟩ => ⟨S8x1, .f32⟩
  | .local _ .vmem, ⟨9, _⟩ => ⟨S8, .f32⟩
  | .local _ .vmem, ⟨10, _⟩ => ⟨S8x1, .f32⟩
  | .local _ .vmem, ⟨11, _⟩ => ⟨S8, .f32⟩
  | .local _ .vmem, ⟨12, _⟩ => ⟨S128x8192, .f32⟩
  | .local _ .vmem, ⟨13, _⟩ => ⟨S128x8192, .f32⟩
  | _, _ => ⟨S128x65536x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x8192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S128x65536x1_S128x65536 : S128x65536x1.ShapeCasts S128x65536
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  inb_S8x1_S1x1_0_0 : ∀ a, (![0, 0] : Fin 2 → Nat) a + S1x1.size a ≤ S8x1.size a
  h_S1x1 : 0 < S1x1.numel
  inpos_S1x1_p0_0 : ∀ a, (![0, 0] : Fin 2 → Nat) a < S1x1.size a
  inb_S8_S1_0 : ∀ a, (![0] : Fin 1 → Nat) a + S1.size a ≤ S8.size a
  h_S1 : 0 < S1.numel
  inpos_S1_p0 : ∀ a, (![0] : Fin 1 → Nat) a < S1.size a
  inb_S8x1_S1x1_1_0 : ∀ a, (![1, 0] : Fin 2 → Nat) a + S1x1.size a ≤ S8x1.size a
  inb_S8_S1_1 : ∀ a, (![1] : Fin 1 → Nat) a + S1.size a ≤ S8.size a
  inb_S8x1_S1x1_2_0 : ∀ a, (![2, 0] : Fin 2 → Nat) a + S1x1.size a ≤ S8x1.size a
  inb_S8_S1_2 : ∀ a, (![2] : Fin 1 → Nat) a + S1.size a ≤ S8.size a
  inb_S8x1_S1x1_3_0 : ∀ a, (![3, 0] : Fin 2 → Nat) a + S1x1.size a ≤ S8x1.size a
  inb_S8_S1_3 : ∀ a, (![3] : Fin 1 → Nat) a + S1.size a ≤ S8.size a
  inb_S8x1_S1x1_4_0 : ∀ a, (![4, 0] : Fin 2 → Nat) a + S1x1.size a ≤ S8x1.size a
  inb_S8_S1_4 : ∀ a, (![4] : Fin 1 → Nat) a + S1.size a ≤ S8.size a
  inb_S8x1_S1x1_5_0 : ∀ a, (![5, 0] : Fin 2 → Nat) a + S1x1.size a ≤ S8x1.size a
  inb_S8_S1_5 : ∀ a, (![5] : Fin 1 → Nat) a + S1.size a ≤ S8.size a
  inb_S8x1_S1x1_6_0 : ∀ a, (![6, 0] : Fin 2 → Nat) a + S1x1.size a ≤ S8x1.size a
  inb_S8_S1_6 : ∀ a, (![6] : Fin 1 → Nat) a + S1.size a ≤ S8.size a
  inb_S8x1_S1x1_7_0 : ∀ a, (![7, 0] : Fin 2 → Nat) a + S1x1.size a ≤ S8x1.size a
  inb_S8_S1_7 : ∀ a, (![7] : Fin 1 → Nat) a + S1.size a ≤ S8.size a
  shapeCasts_S128x65536_S128x65536x1 : S128x65536.ShapeCasts S128x65536x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S128x65536.size a
  hwx0_0 : ∀ i : grid0.Coords, EltTy.bits .i32 = 32 ∨ (Rect.block (s := S128x65536) S128x8192.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S128x65536.size a
  hwx0_1 : ∀ i : grid0.Coords, EltTy.bits .f32 = 32 ∨ (Rect.block (s := S128x65536) S128x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8192.size a ≤ S128x65536.size a
  hwx0_2 : ∀ i : grid0.Coords, EltTy.bits .f32 = 32 ∨ (Rect.block (s := S128x65536) S128x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x1.size a ≤ S8x1.size a
  hwx0_3 : ∀ i : grid0.Coords, EltTy.bits .f32 = 32 ∨ (Rect.block (s := S8x1) S8x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8.size a ≤ S8.size a
  hwx0_4 : ∀ i : grid0.Coords, EltTy.bits .f32 = 32 ∨ (Rect.block (s := S8) S8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x1.size a ≤ S8x1.size a
  hwx0_5 : ∀ i : grid0.Coords, EltTy.bits .f32 = 32 ∨ (Rect.block (s := S8x1) S8x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8.size a ≤ S8.size a
  hwx0_6 : ∀ i : grid0.Coords, EltTy.bits .f32 = 32 ∨ (Rect.block (s := S8) S8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x1.size a ≤ S8x1.size a
  hwx0_7 : ∀ i : grid0.Coords, EltTy.bits .f32 = 32 ∨ (Rect.block (s := S8x1) S8x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8.size a ≤ S8.size a
  hwx0_8 : ∀ i : grid0.Coords, EltTy.bits .f32 = 32 ∨ (Rect.block (s := S8) S8.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x8192.size a ≤ S128x65536.size a
  hwx0_9 : ∀ i : grid0.Coords, EltTy.bits .f32 = 32 ∨ (Rect.block (s := S128x65536) S128x8192.size (cc0_transform_9 i) (hinb0_9 i)).WholeWords (EltTy.packing .f32)

variable [Facts₀]

abbrev win0_0 : Pipeline.Window sig grid0 :=
  Pipeline.Window.ofSpec (Memref.whole main_v0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S8x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S8x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S128x8192.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S128x65536x1 : Shape := ⟨3, ![128, 65536, 1]⟩
abbrev S8x1 : Shape := ⟨2, ![8, 1]⟩
abbrev S8 : Shape := ⟨1, ![8]⟩
abbrev S128x65536x8 : Shape := ⟨3, ![128, 65536, 8]⟩
abbrev S1x1x8 : Shape := ⟨3, ![1, 1, 8]⟩
abbrev S_ : Shape := ⟨0, ![]⟩
abbrev S128x65536x1x1 : Shape := ⟨4, ![128, 65536, 1, 1]⟩
abbrev S1 : Shape := ⟨1, ![1]⟩
abbrev S1x1x1x1 : Shape := ⟨4, ![1, 1, 1, 1]⟩
abbrev S128x65536 : Shape := ⟨2, ![128, 65536]⟩

abbrev nBuf : Space → Nat
  | .hbm => 104
  | .vmem => 0
  | .smem => 0
  | _ => 0

abbrev bufTy : (tb : Table) → Fin (tcTables nBuf tb) → BufTy
  | .hbm, ⟨0, _⟩ => ⟨S128x65536x1, .i32⟩
  | .hbm, ⟨1, _⟩ => ⟨S128x65536x1, .f32⟩
  | .hbm, ⟨2, _⟩ => ⟨S128x65536x1, .f32⟩
  | .hbm, ⟨3, _⟩ => ⟨S8x1, .f32⟩
  | .hbm, ⟨4, _⟩ => ⟨S8, .f32⟩
  | .hbm, ⟨5, _⟩ => ⟨S8x1, .f32⟩
  | .hbm, ⟨6, _⟩ => ⟨S8, .f32⟩
  | .hbm, ⟨7, _⟩ => ⟨S8x1, .f32⟩
  | .hbm, ⟨8, _⟩ => ⟨S8, .f32⟩
  | .hbm, ⟨9, _⟩ => ⟨S128x65536x8, .f32⟩
  | .hbm, ⟨10, _⟩ => ⟨S1x1x8, .f32⟩
  | .hbm, ⟨11, _⟩ => ⟨S128x65536x8, .f32⟩
  | .hbm, ⟨12, _⟩ => ⟨S128x65536x8, .f32⟩
  | .hbm, ⟨13, _⟩ => ⟨S_, .f32⟩
  | .hbm, ⟨14, _⟩ => ⟨S128x65536x8, .f32⟩
  | .hbm, ⟨15, _⟩ => ⟨S128x65536x8, .f32⟩
  | .hbm, ⟨16, _⟩ => ⟨S128x65536x8, .f32⟩
  | .hbm, ⟨17, _⟩ => ⟨S1x1x8, .f32⟩
  | .hbm, ⟨18, _⟩ => ⟨S128x65536x8, .f32⟩
  | .hbm, ⟨19, _⟩ => ⟨S128x65536x8, .f32⟩
  | .hbm, ⟨20, _⟩ => ⟨S_, .f32⟩
  | .hbm, ⟨21, _⟩ => ⟨S128x65536x8, .f32⟩
  | .hbm, ⟨22, _⟩ => ⟨S128x65536x8, .f32⟩
  | .hbm, ⟨23, _⟩ => ⟨S128x65536x8, .f32⟩
  | .hbm, ⟨24, _⟩ => ⟨S1x1x8, .f32⟩
  | .hbm, ⟨25, _⟩ => ⟨S128x65536x8, .f32⟩
  | .hbm, ⟨26, _⟩ => ⟨S128x65536x8, .f32⟩
  | .hbm, ⟨27, _⟩ => ⟨S_, .f32⟩
  | .hbm, ⟨28, _⟩ => ⟨S128x65536x8, .f32⟩
  | .hbm, ⟨29, _⟩ => ⟨S128x65536x8, .f32⟩
  | .hbm, ⟨30, _⟩ => ⟨S_, .i32⟩
  | .hbm, ⟨31, _⟩ => ⟨S128x65536x1, .i32⟩
  | .hbm, ⟨32, _⟩ => ⟨S128x65536x1, .i1⟩
  | .hbm, ⟨33, _⟩ => ⟨S_, .i32⟩
  | .hbm, ⟨34, _⟩ => ⟨S128x65536x1, .i32⟩
  | .hbm, ⟨35, _⟩ => ⟨S128x65536x1, .i32⟩
  | .hbm, ⟨36, _⟩ => ⟨S128x65536x1, .i32⟩
  | .hbm, ⟨37, _⟩ => ⟨S128x65536x1x1, .i32⟩
  | .hbm, ⟨38, _⟩ => ⟨S1, .i32⟩
  | .hbm, ⟨39, _⟩ => ⟨S_, .i32⟩
  | .hbm, ⟨40, _⟩ => ⟨S128x65536x1x1, .i32⟩
  | .hbm, ⟨41, _⟩ => ⟨S128x65536x1x1, .i1⟩
  | .hbm, ⟨42, _⟩ => ⟨S1x1x1x1, .i32⟩
  | .hbm, ⟨43, _⟩ => ⟨S128x65536x1x1, .i32⟩
  | .hbm, ⟨44, _⟩ => ⟨S128x65536x1x1, .i1⟩
  | .hbm, ⟨45, _⟩ => ⟨S128x65536x1x1, .i1⟩
  | .hbm, ⟨46, _⟩ => ⟨S_, .i1⟩
  | .hbm, ⟨47, _⟩ => ⟨S128x65536x1, .i1⟩
  | .hbm, ⟨48, _⟩ => ⟨S128x65536x1, .f32⟩
  | .hbm, ⟨49, _⟩ => ⟨S_, .f32⟩
  | .hbm, ⟨50, _⟩ => ⟨S128x65536x1, .f32⟩
  | .hbm, ⟨51, _⟩ => ⟨S128x65536x1, .f32⟩
  | .hbm, ⟨52, _⟩ => ⟨S_, .i32⟩
  | .hbm, ⟨53, _⟩ => ⟨S128x65536x1, .i32⟩
  | .hbm, ⟨54, _⟩ => ⟨S128x65536x1, .i1⟩
  | .hbm, ⟨55, _⟩ => ⟨S_, .i32⟩
  | .hbm, ⟨56, _⟩ => ⟨S128x65536x1, .i32⟩
  | .hbm, ⟨57, _⟩ => ⟨S128x65536x1, .i32⟩
  | .hbm, ⟨58, _⟩ => ⟨S128x65536x1, .i32⟩
  | .hbm, ⟨59, _⟩ => ⟨S128x65536x1x1, .i32⟩
  | .hbm, ⟨60, _⟩ => ⟨S1, .i32⟩
  | .hbm, ⟨61, _⟩ => ⟨S_, .i32⟩
  | .hbm, ⟨62, _⟩ => ⟨S128x65536x1x1, .i32⟩
  | .hbm, ⟨63, _⟩ => ⟨S128x65536x1x1, .i1⟩
  | .hbm, ⟨64, _⟩ => ⟨S1x1x1x1, .i32⟩
  | .hbm, ⟨65, _⟩ => ⟨S128x65536x1x1, .i32⟩
  | .hbm, ⟨66, _⟩ => ⟨S128x65536x1x1, .i1⟩
  | .hbm, ⟨67, _⟩ => ⟨S128x65536x1x1, .i1⟩
  | .hbm, ⟨68, _⟩ => ⟨S_, .i1⟩
  | .hbm, ⟨69, _⟩ => ⟨S128x65536x1, .i1⟩
  | .hbm, ⟨70, _⟩ => ⟨S128x65536x1, .f32⟩
  | .hbm, ⟨71, _⟩ => ⟨S_, .f32⟩
  | .hbm, ⟨72, _⟩ => ⟨S128x65536x1, .f32⟩
  | .hbm, ⟨73, _⟩ => ⟨S128x65536x1, .f32⟩
  | .hbm, ⟨74, _⟩ => ⟨S_, .i32⟩
  | .hbm, ⟨75, _⟩ => ⟨S128x65536x1, .i32⟩
  | .hbm, ⟨76, _⟩ => ⟨S128x65536x1, .i1⟩
  | .hbm, ⟨77, _⟩ => ⟨S_, .i32⟩
  | .hbm, ⟨78, _⟩ => ⟨S128x65536x1, .i32⟩
  | .hbm, ⟨79, _⟩ => ⟨S128x65536x1, .i32⟩
  | .hbm, ⟨80, _⟩ => ⟨S128x65536x1, .i32⟩
  | .hbm, ⟨81, _⟩ => ⟨S128x65536x1x1, .i32⟩
  | .hbm, ⟨82, _⟩ => ⟨S1, .i32⟩
  | .hbm, ⟨83, _⟩ => ⟨S_, .i32⟩
  | .hbm, ⟨84, _⟩ => ⟨S128x65536x1x1, .i32⟩
  | .hbm, ⟨85, _⟩ => ⟨S128x65536x1x1, .i1⟩
  | .hbm, ⟨86, _⟩ => ⟨S1x1x1x1, .i32⟩
  | .hbm, ⟨87, _⟩ => ⟨S128x65536x1x1, .i32⟩
  | .hbm, ⟨88, _⟩ => ⟨S128x65536x1x1, .i1⟩
  | .hbm, ⟨89, _⟩ => ⟨S128x65536x1x1, .i1⟩
  | .hbm, ⟨90, _⟩ => ⟨S_, .i1⟩
  | .hbm, ⟨91, _⟩ => ⟨S128x65536x1, .i1⟩
  | .hbm, ⟨92, _⟩ => ⟨S128x65536x1, .f32⟩
  | .hbm, ⟨93, _⟩ => ⟨S_, .f32⟩
  | .hbm, ⟨94, _⟩ => ⟨S128x65536x1, .f32⟩
  | .hbm, ⟨95, _⟩ => ⟨S128x65536x1, .f32⟩
  | .hbm, ⟨96, _⟩ => ⟨S128x65536x1, .f32⟩
  | .hbm, ⟨97, _⟩ => ⟨S_, .f32⟩
  | .hbm, ⟨98, _⟩ => ⟨S128x65536, .f32⟩
  | .hbm, ⟨99, _⟩ => ⟨S128x65536x1, .f32⟩
  | .hbm, ⟨100, _⟩ => ⟨S128x65536x1, .f32⟩
  | .hbm, ⟨101, _⟩ => ⟨S128x65536x1, .f32⟩
  | .hbm, ⟨102, _⟩ => ⟨S128x65536x1, .f32⟩
  | .hbm, ⟨103, _⟩ => ⟨S128x65536x1, .f32⟩
  | _, _ => ⟨S128x65536x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call2_cst : Ref sig .tc := ⟨.hbm, 27, rfl⟩
abbrev main_call2_v0 : Ref sig .tc := ⟨.hbm, 28, rfl⟩
abbrev main_v14 : Ref sig .tc := ⟨.hbm, 29, rfl⟩
abbrev main_call3_c : Ref sig .tc := ⟨.hbm, 30, rfl⟩
abbrev main_call3_v0 : Ref sig .tc := ⟨.hbm, 31, rfl⟩
abbrev main_call3_v1 : Ref sig .tc := ⟨.hbm, 32, rfl⟩
abbrev main_call3_c_0 : Ref sig .tc := ⟨.hbm, 33, rfl⟩
abbrev main_call3_v2 : Ref sig .tc := ⟨.hbm, 34, rfl⟩
abbrev main_call3_v3 : Ref sig .tc := ⟨.hbm, 35, rfl⟩
abbrev main_call3_v4 : Ref sig .tc := ⟨.hbm, 36, rfl⟩
abbrev main_call3_v5 : Ref sig .tc := ⟨.hbm, 37, rfl⟩
abbrev main_call3_c_1 : Ref sig .tc := ⟨.hbm, 38, rfl⟩
abbrev main_call3_c_2 : Ref sig .tc := ⟨.hbm, 39, rfl⟩
abbrev main_call3_v6 : Ref sig .tc := ⟨.hbm, 40, rfl⟩
abbrev main_call3_v7 : Ref sig .tc := ⟨.hbm, 41, rfl⟩
abbrev main_call3_v8 : Ref sig .tc := ⟨.hbm, 42, rfl⟩
abbrev main_call3_v9 : Ref sig .tc := ⟨.hbm, 43, rfl⟩
abbrev main_call3_v10 : Ref sig .tc := ⟨.hbm, 44, rfl⟩
abbrev main_call3_v11 : Ref sig .tc := ⟨.hbm, 45, rfl⟩
abbrev main_call3_c_3 : Ref sig .tc := ⟨.hbm, 46, rfl⟩
abbrev main_call3_v12 : Ref sig .tc := ⟨.hbm, 47, rfl⟩
abbrev main_call3_v13 : Ref sig .tc := ⟨.hbm, 48, rfl⟩
abbrev main_call3_cst : Ref sig .tc := ⟨.hbm, 49, rfl⟩
abbrev main_call3_v14 : Ref sig .tc := ⟨.hbm, 50, rfl⟩
abbrev main_v15 : Ref sig .tc := ⟨.hbm, 51, rfl⟩
abbrev main_call4_c : Ref sig .tc := ⟨.hbm, 52, rfl⟩
abbrev main_call4_v0 : Ref sig .tc := ⟨.hbm, 53, rfl⟩
abbrev main_call4_v1 : Ref sig .tc := ⟨.hbm, 54, rfl⟩
abbrev main_call4_c_0 : Ref sig .tc := ⟨.hbm, 55, rfl⟩
abbrev main_call4_v2 : Ref sig .tc := ⟨.hbm, 56, rfl⟩
abbrev main_call4_v3 : Ref sig .tc := ⟨.hbm, 57, rfl⟩
abbrev main_call4_v4 : Ref sig .tc := ⟨.hbm, 58, rfl⟩
abbrev main_call4_v5 : Ref sig .tc := ⟨.hbm, 59, rfl⟩
abbrev main_call4_c_1 : Ref sig .tc := ⟨.hbm, 60, rfl⟩
abbrev main_call4_c_2 : Ref sig .tc := ⟨.hbm, 61, rfl⟩
abbrev main_call4_v6 : Ref sig .tc := ⟨.hbm, 62, rfl⟩
abbrev main_call4_v7 : Ref sig .tc := ⟨.hbm, 63, rfl⟩
abbrev main_call4_v8 : Ref sig .tc := ⟨.hbm, 64, rfl⟩
abbrev main_call4_v9 : Ref sig .tc := ⟨.hbm, 65, rfl⟩
abbrev main_call4_v10 : Ref sig .tc := ⟨.hbm, 66, rfl⟩
abbrev main_call4_v11 : Ref sig .tc := ⟨.hbm, 67, rfl⟩
abbrev main_call4_c_3 : Ref sig .tc := ⟨.hbm, 68, rfl⟩
abbrev main_call4_v12 : Ref sig .tc := ⟨.hbm, 69, rfl⟩
abbrev main_call4_v13 : Ref sig .tc := ⟨.hbm, 70, rfl⟩
abbrev main_call4_cst : Ref sig .tc := ⟨.hbm, 71, rfl⟩
abbrev main_call4_v14 : Ref sig .tc := ⟨.hbm, 72, rfl⟩
abbrev main_v16 : Ref sig .tc := ⟨.hbm, 73, rfl⟩
abbrev main_call5_c : Ref sig .tc := ⟨.hbm, 74, rfl⟩
abbrev main_call5_v0 : Ref sig .tc := ⟨.hbm, 75, rfl⟩
abbrev main_call5_v1 : Ref sig .tc := ⟨.hbm, 76, rfl⟩
abbrev main_call5_c_0 : Ref sig .tc := ⟨.hbm, 77, rfl⟩
abbrev main_call5_v2 : Ref sig .tc := ⟨.hbm, 78, rfl⟩
abbrev main_call5_v3 : Ref sig .tc := ⟨.hbm, 79, rfl⟩
abbrev main_call5_v4 : Ref sig .tc := ⟨.hbm, 80, rfl⟩
abbrev main_call5_v5 : Ref sig .tc := ⟨.hbm, 81, rfl⟩
abbrev main_call5_c_1 : Ref sig .tc := ⟨.hbm, 82, rfl⟩
abbrev main_call5_c_2 : Ref sig .tc := ⟨.hbm, 83, rfl⟩
abbrev main_call5_v6 : Ref sig .tc := ⟨.hbm, 84, rfl⟩
abbrev main_call5_v7 : Ref sig .tc := ⟨.hbm, 85, rfl⟩
abbrev main_call5_v8 : Ref sig .tc := ⟨.hbm, 86, rfl⟩
abbrev main_call5_v9 : Ref sig .tc := ⟨.hbm, 87, rfl⟩
abbrev main_call5_v10 : Ref sig .tc := ⟨.hbm, 88, rfl⟩
abbrev main_call5_v11 : Ref sig .tc := ⟨.hbm, 89, rfl⟩
abbrev main_call5_c_3 : Ref sig .tc := ⟨.hbm, 90, rfl⟩
abbrev main_call5_v12 : Ref sig .tc := ⟨.hbm, 91, rfl⟩
abbrev main_call5_v13 : Ref sig .tc := ⟨.hbm, 92, rfl⟩
abbrev main_call5_cst : Ref sig .tc := ⟨.hbm, 93, rfl⟩
abbrev main_call5_v14 : Ref sig .tc := ⟨.hbm, 94, rfl⟩
abbrev main_v17 : Ref sig .tc := ⟨.hbm, 95, rfl⟩
abbrev main_v18 : Ref sig .tc := ⟨.hbm, 96, rfl⟩
abbrev main_cst : Ref sig .tc := ⟨.hbm, 97, rfl⟩
abbrev main_v19 : Ref sig .tc := ⟨.hbm, 98, rfl⟩
abbrev main_v20 : Ref sig .tc := ⟨.hbm, 99, rfl⟩
abbrev main_v21 : Ref sig .tc := ⟨.hbm, 100, rfl⟩
abbrev main_v22 : Ref sig .tc := ⟨.hbm, 101, rfl⟩
abbrev main_v23 : Ref sig .tc := ⟨.hbm, 102, rfl⟩
abbrev main_v24 : Ref sig .tc := ⟨.hbm, 103, rfl⟩

abbrev nD : Nat := 1
abbrev τ : Topo := Topo.v7x

variable {F : FTy → Type} [FloatOps F]

class Facts₀ : Prop where
  bcast_S8_S1x1x8_2 : S8.BroadcastsInDim S1x1x8 (![2] : Fin 1 → Fin S1x1x8.rank)
  bcast_S1x1x8_S128x65536x8_0_1_2 : S1x1x8.BroadcastsInDim S128x65536x8 (![0, 1, 2] : Fin 3 → Fin S128x65536x8.rank)
  bcast_S_S128x65536x8 : S_.BroadcastsInDim S128x65536x8 (![] : Fin 0 → Fin S128x65536x8.rank)
  bcast_S_S128x65536x1 : S_.BroadcastsInDim S128x65536x1 (![] : Fin 0 → Fin S128x65536x1.rank)
  shapeCasts_S128x65536x1_S128x65536x1x1 : S128x65536x1.ShapeCasts S128x65536x1x1
  bcast_S_S128x65536x1x1 : S_.BroadcastsInDim S128x65536x1x1 (![] : Fin 0 → Fin S128x65536x1x1.rank)
  bcast_S1_S1x1x1x1_3 : S1.BroadcastsInDim S1x1x1x1 (![3] : Fin 1 → Fin S1x1x1x1.rank)
  bcast_S1x1x1x1_S128x65536x1x1_0_1_2_3 : S1x1x1x1.BroadcastsInDim S128x65536x1x1 (![0, 1, 2, 3] : Fin 4 → Fin S128x65536x1x1.rank)
  reducesTo_S128x65536x1x1_S128x65536x1_d3 : S128x65536x1x1.ReducesTo [3] S128x65536x1
  h_S_ : 0 < S_.numel
  reducesTo_S128x65536x1_S128x65536_d2 : S128x65536x1.ReducesTo [2] S128x65536
  bcast_S128x65536_S128x65536x1_0_1 : S128x65536.BroadcastsInDim S128x65536x1 (![0, 1] : Fin 2 → Fin S128x65536x1.rank)
  dot_S128x65536x1_S8x1_S128x65536x8_2_1_01_0_n_n_wf : DotDims.WF S128x65536x1 S8x1 S128x65536x8 [2] [1] [0, 1] [0] [] []
  gather_S128x65536x8_S128x65536x1x1_S128x65536x1_n_2_01_01_2_3_111_wf : GatherDims.WF S128x65536x8 S128x65536x1x1 S128x65536x1 [] [2] [0, 1] [2] [0, 1] 3 ![1, 1, 1]

variable [Facts₀]

def dot_S128x65536x1_S8x1_S128x65536x8_2_1_01_0_n_n : DotDims S128x65536x1 S8x1 S128x65536x8 where
  lhsContracting := [2]
  rhsContracting := [1]
  lhsNonContracting := [0, 1]
  rhsNonContracting := [0]
  lhsBatch := []
  rhsBatch := []
  wf := dot_S128x65536x1_S8x1_S128x65536x8_2_1_01_0_n_n_wf
def gather_S128x65536x8_S128x65536x1x1_S128x65536x1_n_2_01_01_2_3_111 : GatherDims S128x65536x8 S128x65536x1x1 S128x65536x1 where
  offsetDims := []
  collapsedSliceDims := [2]
  operandBatchingDims := [0, 1]
  startIndicesBatchingDims := [0, 1]
  startIndexMap := [2]
  indexVectorDim := 3
  sliceSizes := ![1, 1, 1]
  wf := gather_S128x65536x8_S128x65536x1x1_S128x65536x1_n_2_01_01_2_3_111_wf

class Facts : Prop extends Facts₀ where

variable [Facts]
-- ==== Proof.IndexRange.lean ====
/-
  The index input read out of the precondition.

  The precondition closes with two whole-array conjunctions over the integer input: every word is at least 0 and every
  word is below 8, both as signed integers. A conjunction over a whole array that came out true was true at every
  index, and a signed comparison that came out true orders the two signed values; so at every index the word, read
  signed, lies in [0, 8). The float conjuncts in front of these two are not opened.
-/
import proofs.«406402_j8572754722980_1_alg».proof.Pre_finite_inputs
import Idealize.ShloMosaic.Lib.ReduceAll

noncomputable section

namespace Cert.IndexRange

open Idealize.ShloMosaic Cert.Pre_finite_inputs

variable {F : FTy → Type} [FloatOps F] [hP : Cert.Pre_finite_inputs.Facts]

/-- The rank-0 shape has one index. -/
instance : Subsingleton S_.Idx := ⟨fun _ _ => funext fun d => d.elim0⟩

/-- Under the precondition every word of the index input, read signed, lies in [0, 8). -/
theorem signed_range (a0 : IVec S128x65536x1 32) (a1 a2 : FVec F S128x65536x1 .f32) (a3 : FVec F S8x1 .f32) (a4 : FVec F S8 .f32)
    (a5 : FVec F S8x1 .f32) (a6 : FVec F S8 .f32) (a7 : FVec F S8x1 .f32) (a8 : FVec F S8 .f32)
    (h : Cert.Pre_finite_inputs.fn (F := F) a0 a1 a2 a3 a4 a5 a6 a7 a8 = fun _ => 1#1) (i : S128x65536x1.Idx) :
    0 ≤ (a0 i).toInt ∧ (a0 i).toInt < 8 := by
  have e := congrFun h (fun d => d.elim0)
  dsimp only [Cert.Pre_finite_inputs.fn, Cert.Pre_finite_inputs.fn_part1, Cert.Pre_finite_inputs.fn_part2, andi] at e
  obtain ⟨h1, hlt⟩ := IntOp.andi_eq_one.1 e
  obtain ⟨-, hge⟩ := IntOp.andi_eq_one.1 h1
  have g := Host.reduce_andi_all _ _ _ _ _ hge i
  have l := Host.reduce_andi_all _ _ _ _ _ hlt i
  have g' : (0#32 : BitVec 32).toInt ≤ (a0 i).toInt := IntOp.cmpi_sge.1 g
  have l' : (a0 i).toInt < (8#32 : BitVec 32).toInt := IntOp.cmpi_slt.1 l
  exact ⟨by simpa using g', by simpa using l'⟩

end Cert.IndexRange

end
-- ==== Proof.Mixture.lean ====
/-
  Choosing one of eight mixture components by an index word, and the planar transform built from the chosen one.

  The kernel chooses a component by eight nested selections, one per candidate n = 0, …, 7: "if the word equals n take
  component n, else keep what the earlier candidates left", starting from a filler. A word whose signed value lies in
  [0, 8) equals exactly one candidate, so the nest returns that component and the filler is never seen. The reference
  reads the component at the word's signed value clamped into [0, 7], which for such a word is the same component.

  Each component n of a layer is the rectified affine map max (o · W[n, 0] + b[n], 0) of the observation o; the transform
  is s + u · tanh (w · s + b) with w, u, b the chosen components of the three layers.
-/
import Idealize.ShloMosaic.PureOps.Ideal
import Idealize.ShloMosaic.PureOps.Ideal.Laws
import Idealize.ShloMosaic.Lib.ValueIdx
import Idealize.ShloMosaic.Lib.Affine

noncomputable section

namespace Cert.Mixture

open Idealize.ShloMosaic Idealize.ShloMosaic.ValueIdx

/-- The component a word names: its signed value clamped into [0, 7]. -/
def comp (w : BitVec 32) : Fin 8 := ⟨min w.toInt.toNat 7, by omega⟩

/-- A word whose signed value lies in [0, 8) is below 8 as an unsigned number too. -/
theorem toNat_lt_eight (w : BitVec 32) (h0 : 0 ≤ w.toInt) (h8 : w.toInt < 8) : w.toNat < 8 := by
  have hw := w.isLt
  rw [BitVec.toInt_eq_toNat_cond] at h0 h8
  split at h0 <;> omega

/-- Eight nested selections on "the word equals n", the candidate n = 7 outermost, over a filler `z`. -/
def chain {α : Type} (w : BitVec 32) (f : Fin 8 → α) (z : α) : α :=
  Scalar.select (IntOp.cmpi .eq w 7#32) (f 7)
  (Scalar.select (IntOp.cmpi .eq w 6#32) (f 6)
  (Scalar.select (IntOp.cmpi .eq w 5#32) (f 5)
  (Scalar.select (IntOp.cmpi .eq w 4#32) (f 4)
  (Scalar.select (IntOp.cmpi .eq w 3#32) (f 3)
  (Scalar.select (IntOp.cmpi .eq w 2#32) (f 2)
  (Scalar.select (IntOp.cmpi .eq w 1#32) (f 1)
  (Scalar.select (IntOp.cmpi .eq w 0#32) (f 0) z)))))))

/-- For a word in [0, 8) the nest returns the component the word names. -/
theorem chain_eq {α : Type} (w : BitVec 32) (h0 : 0 ≤ w.toInt) (h8 : w.toInt < 8) (f : Fin 8 → α) (z : α) :
    chain w f z = f (comp w) := by
  have hn := toNat_lt_eight w h0 h8
  obtain ⟨n, rfl⟩ : ∃ n : Fin 8, w = BitVec.ofNat 32 n.val := ⟨⟨w.toNat, hn⟩, by simp⟩
  fin_cases n <;> rfl

/-- For a word in [0, 8) the clamped signed value is the signed value. -/
theorem comp_val (w : BitVec 32) (h0 : 0 ≤ w.toInt) (h8 : w.toInt < 8) : (comp w).val = w.toInt.toNat := by
  show min w.toInt.toNat 7 = w.toInt.toNat
  omega

/-- The zero the rectifier compares with, kept as the float word both programs print. -/
abbrev zeroWord : EReal := Ideal.ofBits .f32 0x00000000#32

/-- One component of a layer: the rectified affine map of the observation. -/
def relu (o w b : EReal) : EReal := max (o * w + b) zeroWord

/-- The planar transform at one element, from the element's index word, state and observation and the three layers'
    weight columns and biases: s + u · tanh (w · s + b), the three coefficients the chosen components. -/
def flowAt (mw : BitVec 32) (s o : EReal) (W1 : (⟨2, ![8, 1]⟩ : Shape).Idx → EReal) (b1 : (⟨1, ![8]⟩ : Shape).Idx → EReal)
    (W2 : (⟨2, ![8, 1]⟩ : Shape).Idx → EReal) (b2 : (⟨1, ![8]⟩ : Shape).Idx → EReal)
    (W3 : (⟨2, ![8, 1]⟩ : Shape).Idx → EReal) (b3 : (⟨1, ![8]⟩ : Shape).Idx → EReal) : EReal :=
  s + relu o (W2 (ix2 (comp mw) (0 : Fin 1))) (b2 (ix1 (comp mw)))
        * Ideal.tanh (relu o (W1 (ix2 (comp mw) (0 : Fin 1))) (b1 (ix1 (comp mw))) * s
                      + relu o (W3 (ix2 (comp mw) (0 : Fin 1))) (b3 (ix1 (comp mw))))

/-- The same transform with each chosen component written as the nest of selections: what a program that chooses by
    eight selections computes, for an index word in [0, 8). -/
theorem flowAt_chain (mw : BitVec 32) (s o : EReal) (W1 : (⟨2, ![8, 1]⟩ : Shape).Idx → EReal) (b1 : (⟨1, ![8]⟩ : Shape).Idx → EReal)
    (W2 : (⟨2, ![8, 1]⟩ : Shape).Idx → EReal) (b2 : (⟨1, ![8]⟩ : Shape).Idx → EReal)
    (W3 : (⟨2, ![8, 1]⟩ : Shape).Idx → EReal) (b3 : (⟨1, ![8]⟩ : Shape).Idx → EReal) (h0 : 0 ≤ mw.toInt) (h8 : mw.toInt < 8) :
    flowAt mw s o W1 b1 W2 b2 W3 b3
      = s + chain mw (fun n => relu o (W2 (ix2 n (0 : Fin 1))) (b2 (ix1 n))) zeroWord
            * Ideal.tanh (chain mw (fun n => relu o (W1 (ix2 n (0 : Fin 1))) (b1 (ix1 n))) zeroWord * s
                          + chain mw (fun n => relu o (W3 (ix2 n (0 : Fin 1))) (b3 (ix1 n))) zeroWord) := by
  rw [chain_eq mw h0 h8, chain_eq mw h0 h8, chain_eq mw h0 h8]
  rfl

end Cert.Mixture

end
-- ==== Proof.BodyValue.lean ====
/-
  What the idealized kernel leaves in its result, element by element.

  One grid point j of eight takes the [128, 8192] column block j of the index words m, of the states s and of the
  observations o, and the whole small weight columns and biases. Its body computes, per element, the eight components
  of each of the three layers, chooses one by the nest of selections on "m = n", and stores
  s + u · tanh (w · s + b) as block j of the [128, 65536] result. For index words in [0, 8) this is `Mixture.flowAt`.
  The blocks tile the result, so the array after the region is that function of the arrays the region found; the
  arrays it found are the arguments reshaped from [128, 65536, 1], and the result is reshaped back.
-/
import proofs.«406402_j8572754722980_1_alg».proof.Proof.Gen.KernelIdeal.Frame
import proofs.«406402_j8572754722980_1_alg».proof.Proof.Mixture
import Idealize.ShloMosaic.Lib.Pipeline.Value
import Idealize.ShloMosaic.Lib.ValueIdx
import Idealize.ShloMosaic.PureOps.Ideal.Laws

set_option maxRecDepth 16384

noncomputable section

namespace Cert.KernelIdeal.BodyValue

open Cert.KernelIdeal Cert.KernelIdeal.Gen Idealize.ShloMosaic Idealize.ShloMosaic.TcCoe Idealize.ShloMosaic.ValueIdx Cert.Mixture

theorem hz : (![0, 0] : Fin 2 → Nat) = fun _ => 0 := funext fun a => by fin_cases a <;> rfl

/-- The scalar the body extracts from its load of row k of a weight column is the column's entry (k, 0). -/
theorem ldW (xw : Vec Ideal S8x1 .f32) (k : Nat) (hk : k < 8) (inb : ∀ a, (![k, 0] : Fin 2 → Nat) a + S1x1.size a ≤ S8x1.size a)
    (inpos : ∀ a, (![0, 0] : Fin 2 → Nat) a < S1x1.size a) :
    extractAt ![0, 0] (View.ld xw (Rect.unit (s := S8x1) ![k, 0] S1x1.size inb)) inpos = xw (ix2 (⟨k, hk⟩ : Fin 8) (0 : Fin 1)) :=
  congrArg xw (funext fun a => Fin.ext (by
    match a with
    | ⟨0, _⟩ => show k + 1 * 0 = k; omega
    | ⟨1, _⟩ => rfl))

/-- The scalar the body extracts from its load of entry k of a bias vector is that entry. -/
theorem ldB (xb : Vec Ideal S8 .f32) (k : Nat) (hk : k < 8) (inb : ∀ a, (![k] : Fin 1 → Nat) a + S1.size a ≤ S8.size a)
    (inpos : ∀ a, (![0] : Fin 1 → Nat) a < S1.size a) :
    extractAt ![0] (View.ld xb (Rect.unit (s := S8) ![k] S1.size inb)) inpos = xb (ix1 (⟨k, hk⟩ : Fin 8)) :=
  congrArg xb (funext fun a => Fin.ext (by
    match a with
    | ⟨0, _⟩ => show k + 1 * 0 = k; omega))

/-- THE BODY'S STORE AT AN ELEMENT, for an index word in [0, 8): the planar transform with the word's components. -/
theorem out_apply (x0 : Vec Ideal S128x8192 .i32) (x1 x2 : Vec Ideal S128x8192 .f32) (x3 : Vec Ideal S8x1 .f32) (x4 : Vec Ideal S8 .f32)
    (x5 : Vec Ideal S8x1 .f32) (x6 : Vec Ideal S8 .f32) (x7 : Vec Ideal S8x1 .f32) (x8 : Vec Ideal S8 .f32) (j : S128x8192.Idx)
    (h0 : 0 ≤ (x0 j).toInt) (h8 : (x0 j).toInt < 8) :
    out0_9 (F := Ideal) x0 x1 x2 x3 x4 x5 x6 x7 x8 j = flowAt (x0 j) (x1 j) (x2 j) x3 x4 x5 x6 x7 x8 := by
  rw [flowAt_chain (x0 j) (x1 j) (x2 j) x3 x4 x5 x6 x7 x8 h0 h8]
  unfold out0_9
  rw [View.canon_unit_zero hz]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48,
    View.ld_unit_zero (S := S128x8192) hz, shapeCast_self,
    ldW _ 0 (by decide), ldW _ 1 (by decide), ldW _ 2 (by decide), ldW _ 3 (by decide), ldW _ 4 (by decide), ldW _ 5 (by decide), ldW _ 6 (by decide), ldW _ 7 (by decide),
    ldB _ 0 (by decide), ldB _ 1 (by decide), ldB _ 2 (by decide), ldB _ 3 (by decide), ldB _ 4 (by decide), ldB _ 5 (by decide), ldB _ 6 (by decide), ldB _ 7 (by decide),
    mulf, addf, maximumf, tanh, select, cmpi, broadcast]
  rfl

end Cert.KernelIdeal.BodyValue

end
-- ==== Proof.RunValue.lean ====
/-
  The idealized kernel's run, read: the result array as one function of the argument arrays.

  The region finds the three [128, 65536] arrays that @main reshaped from the [128, 65536, 1] arguments, and the six small
  arguments as launched. Grid point t writes column block t of the result, and at every element of it the body's store is
  `Mixture.flowAt` of the same element of the three big arrays (BodyValue), so every block is the restriction of ONE
  whole-array function; the eight blocks tile the result, which therefore ends at that function. @main then reshapes
  it to [128, 65536, 1]. Read back through the two reshapes, the result at (a, p, 0) is `flowAt` of the arguments at
  (a, p, 0). All of it needs the index words in [0, 8).
-/
import proofs.«406402_j8572754722980_1_alg».proof.Proof.BodyValue

set_option maxRecDepth 16384

noncomputable section

namespace Cert.KernelIdeal.RunValue

open Cert.KernelIdeal Cert.KernelIdeal.Gen Idealize.ShloMosaic Idealize.ShloMosaic.TcCoe Idealize.ShloMosaic.ValueIdx Cert.Mixture
open Idealize.SL.Sem
open Idealize.ShloMosaic.Pipeline (Dat)

variable (m : (ℓ : Loc nD τ sig) → Buf (Elt Ideal) ℓ) (ρ : Dev nD → PrngReg)

/-! ## The arrays the region finds, at their literal types -/

abbrev mArr (c : Dev nD) : Vec Ideal S128x65536 .i32 := V m c main_v0
abbrev sArr (c : Dev nD) : Vec Ideal S128x65536 .f32 := V m c main_v1
abbrev oArr (c : Dev nD) : Vec Ideal S128x65536 .f32 := V m c main_v2
abbrev w1 (c : Dev nD) : Vec Ideal S8x1 .f32 := V m c main_arg3
abbrev c1 (c : Dev nD) : Vec Ideal S8 .f32 := V m c main_arg4
abbrev w2 (c : Dev nD) : Vec Ideal S8x1 .f32 := V m c main_arg5
abbrev c2 (c : Dev nD) : Vec Ideal S8 .f32 := V m c main_arg6
abbrev w3 (c : Dev nD) : Vec Ideal S8x1 .f32 := V m c main_arg7
abbrev c3 (c : Dev nD) : Vec Ideal S8 .f32 := V m c main_arg8

/-- The whole-array function the result's blocks are restrictions of. -/
def G (c : Dev nD) : Vec Ideal S128x65536 .f32 := fun i =>
  flowAt (mArr m c i) (sArr m c i) (oArr m c i) (w1 m c) (c1 m c) (w2 m c) (c2 m c) (w3 m c) (c3 m c)

/-- The printed index maps, decided over the grid: the four big windows sit at block (0, t), the six small ones at the
    origin. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_9.index t (0 : Fin 2) = 0 ∧ win0_9.index t (1 : Fin 2) = t.val
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

/-! ## Each input block, read where the result's block says -/

theorem blk0 (c : Dev nD) (t : Fin cfg0.N) (y : S128x8192.Idx) :
    iblk m c 0 t y = mArr m c (((cfg0.win 9).blk t).view.emb y) := by
  show V m c main_v0 (((cfg0.win 0).blk t).view.emb y) = V m c main_v0 (((cfg0.win 9).blk t).view.emb y)
  refine congrArg (V m c main_v0) ?_
  obtain ⟨a0, a1, -, -, -, -, d0, d1, -⟩ := idx_facts t
  funext a; apply Fin.ext
  match a with
  | ⟨0, _⟩ => show win0_0.index t (0 : Fin 2) * 128 + 1 * (y 0).val = win0_9.index t (0 : Fin 2) * 128 + 1 * (y 0).val; omega
  | ⟨1, _⟩ => show win0_0.index t (1 : Fin 2) * 8192 + 1 * (y 1).val = win0_9.index t (1 : Fin 2) * 8192 + 1 * (y 1).val; omega

theorem blk1 (c : Dev nD) (t : Fin cfg0.N) (y : S128x8192.Idx) :
    iblk m c 1 t y = sArr m c (((cfg0.win 9).blk t).view.emb y) := by
  show V m c main_v1 (((cfg0.win 1).blk t).view.emb y) = V m c main_v1 (((cfg0.win 9).blk t).view.emb y)
  refine congrArg (V m c main_v1) ?_
  obtain ⟨-, -, a0, a1, -, -, d0, d1, -⟩ := idx_facts t
  funext a; apply Fin.ext
  match a with
  | ⟨0, _⟩ => show win0_1.index t (0 : Fin 2) * 128 + 1 * (y 0).val = win0_9.index t (0 : Fin 2) * 128 + 1 * (y 0).val; omega
  | ⟨1, _⟩ => show win0_1.index t (1 : Fin 2) * 8192 + 1 * (y 1).val = win0_9.index t (1 : Fin 2) * 8192 + 1 * (y 1).val; omega

theorem blk2 (c : Dev nD) (t : Fin cfg0.N) (y : S128x8192.Idx) :
    iblk m c 2 t y = oArr m c (((cfg0.win 9).blk t).view.emb y) := by
  show V m c main_v2 (((cfg0.win 2).blk t).view.emb y) = V m c main_v2 (((cfg0.win 9).blk t).view.emb y)
  refine congrArg (V m c main_v2) ?_
  obtain ⟨-, -, -, -, a0, a1, d0, d1, -⟩ := idx_facts t
  funext a; apply Fin.ext
  match a with
  | ⟨0, _⟩ => show win0_2.index t (0 : Fin 2) * 128 + 1 * (y 0).val = win0_9.index t (0 : Fin 2) * 128 + 1 * (y 0).val; omega
  | ⟨1, _⟩ => show win0_2.index t (1 : Fin 2) * 8192 + 1 * (y 1).val = win0_9.index t (1 : Fin 2) * 8192 + 1 * (y 1).val; omega

/-- A small window's one block is its whole array. -/
theorem blk3 (c : Dev nD) (t : Fin cfg0.N) : (iblk m c 3 t : Vec Ideal S8x1 .f32) = w1 m c := by
  funext y
  show V m c main_arg3 (((cfg0.win 3).blk t).view.emb y) = V m c main_arg3 y
  refine congrArg (V m c main_arg3) ?_
  obtain ⟨-, -, -, -, -, -, -, -, e0, e1, -⟩ := idx_facts t
  funext a; apply Fin.ext
  match a with
  | ⟨0, _⟩ => show win0_3.index t (0 : Fin 2) * 8 + 1 * (y 0).val = (y 0).val; omega
  | ⟨1, _⟩ => show win0_3.index t (1 : Fin 2) * 1 + 1 * (y 1).val = (y 1).val; omega

theorem blk4 (c : Dev nD) (t : Fin cfg0.N) : (iblk m c 4 t : Vec Ideal S8 .f32) = c1 m c := by
  funext y
  show V m c main_arg4 (((cfg0.win 4).blk t).view.emb y) = V m c main_arg4 y
  refine congrArg (V m c main_arg4) ?_
  obtain ⟨-, -, -, -, -, -, -, -, -, -, e0, -⟩ := idx_facts t
  funext a; apply Fin.ext
  match a with
  | ⟨0, _⟩ => show win0_4.index t (0 : Fin 1) * 8 + 1 * (y 0).val = (y 0).val; omega

theorem blk5 (c : Dev nD) (t : Fin cfg0.N) : (iblk m c 5 t : Vec Ideal S8x1 .f32) = w2 m c := by
  funext y
  show V m c main_arg5 (((cfg0.win 5).blk t).view.emb y) = V m c main_arg5 y
  refine congrArg (V m c main_arg5) ?_
  obtain ⟨-, -, -, -, -, -, -, -, -, -, -, e0, e1, -⟩ := idx_facts t
  funext a; apply Fin.ext
  match a with
  | ⟨0, _⟩ => show win0_5.index t (0 : Fin 2) * 8 + 1 * (y 0).val = (y 0).val; omega
  | ⟨1, _⟩ => show win0_5.index t (1 : Fin 2) * 1 + 1 * (y 1).val = (y 1).val; omega

theorem blk6 (c : Dev nD) (t : Fin cfg0.N) : (iblk m c 6 t : Vec Ideal S8 .f32) = c2 m c := by
  funext y
  show V m c main_arg6 (((cfg0.win 6).blk t).view.emb y) = V m c main_arg6 y
  refine congrArg (V m c main_arg6) ?_
  obtain ⟨-, -, -, -, -, -, -, -, -, -, -, -, -, e0, -⟩ := idx_facts t
  funext a; apply Fin.ext
  match a with
  | ⟨0, _⟩ => show win0_6.index t (0 : Fin 1) * 8 + 1 * (y 0).val = (y 0).val; omega

theorem blk7 (c : Dev nD) (t : Fin cfg0.N) : (iblk m c 7 t : Vec Ideal S8x1 .f32) = w3 m c := by
  funext y
  show V m c main_arg7 (((cfg0.win 7).blk t).view.emb y) = V m c main_arg7 y
  refine congrArg (V m c main_arg7) ?_
  obtain ⟨-, -, -, -, -, -, -, -, -, -, -, -, -, -, e0, e1, -⟩ := idx_facts t
  funext a; apply Fin.ext
  match a with
  | ⟨0, _⟩ => show win0_7.index t (0 : Fin 2) * 8 + 1 * (y 0).val = (y 0).val; omega
  | ⟨1, _⟩ => show win0_7.index t (1 : Fin 2) * 1 + 1 * (y 1).val = (y 1).val; omega

theorem blk8 (c : Dev nD) (t : Fin cfg0.N) : (iblk m c 8 t : Vec Ideal S8 .f32) = c3 m c := by
  funext y
  show V m c main_arg8 (((cfg0.win 8).blk t).view.emb y) = V m c main_arg8 y
  refine congrArg (V m c main_arg8) ?_
  obtain ⟨-, -, -, -, -, -, -, -, -, -, -, -, -, -, -, -, e0⟩ := idx_facts t
  funext a; apply Fin.ext
  match a with
  | ⟨0, _⟩ => show win0_8.index t (0 : Fin 1) * 8 + 1 * (y 0).val = (y 0).val; omega

/-! ## Blocks to the array -/

/-- The index words the region finds lie in [0, 8). -/
def InRange : Prop := ∀ (c : Dev nD) (i : S128x65536.Idx), 0 ≤ (mArr m c i).toInt ∧ (mArr m c i).toInt < 8

/-- WHAT POINT t WRITES BACK is block t of `G`. -/
theorem flushed_eq (hr : InRange m) (c : Dev nD) (t : Fin cfg0.N) :
    (dats m 0 c).flushed 9 t = ((cfg0.win 9).blk t).view.read (Elt Ideal) (G m c) := by
  show (cfg0.win 9).cut (grid0.coords t) ((dats m 0 c).after 9 t) = _
  rw [after0_9]
  funext y
  have hy := hr c (((cfg0.win 9).blk t).view.emb y)
  rw [← blk0 m c t y] at hy
  refine (Cert.KernelIdeal.BodyValue.out_apply (iblk m c 0 t) (iblk m c 1 t) (iblk m c 2 t) (iblk m c 3 t) (iblk m c 4 t)
    (iblk m c 5 t) (iblk m c 6 t) (iblk m c 7 t) (iblk m c 8 t) y hy.1 hy.2).trans ?_
  show _ = G m c (((cfg0.win 9).blk t).view.emb y)
  unfold G
  rw [blk0 m c t y, blk1 m c t y, blk2 m c t y, blk3 m c t, blk4 m c t, blk5 m c t, blk6 m c t, blk7 m c t, blk8 m c t]

/-- An index of the result is in point t's block iff each coordinate is in the block's range on its axis. -/
theorem mem_blk (t : Fin cfg0.N) (i : S128x65536.Idx) :
    i ∈ ((cfg0.win 9).blk t).view.set ↔ ∀ a : Fin 2, win0_9.index t a * S128x8192.size a ≤ (i a).val ∧ (i a).val < win0_9.index t a * S128x8192.size a + S128x8192.size a := by
  show i ∈ ((View.whole main_v3).slice (win0_9.rect t)).set ↔ _
  rw [View.set_slice_whole, Rect.mem_set_unit]
  exact Iff.rfl

/-- The eight column blocks tile the result. -/
theorem cover (i : S128x65536.Idx) : ∃ t : Fin cfg0.N, (cfg0.win 9).flush t = true ∧ i ∈ ((cfg0.win 9).blk t).view.set := by
  have hi0 : (i 0).val < 128 := (i 0).isLt
  have hi1 : (i 1).val < 65536 := (i 1).isLt
  let t : Fin cfg0.N := ⟨(i 1).val / 8192, by show (i 1).val / 8192 < 8; omega⟩
  obtain ⟨-, -, -, -, -, -, d0, d1, -⟩ := idx_facts t
  have ht : t.val = (i 1).val / 8192 := rfl
  refine ⟨t, flush0_9 t, ?_⟩
  rw [mem_blk]
  intro a
  match a with
  | ⟨0, _⟩ => show win0_9.index t (0 : Fin 2) * 128 ≤ (i 0).val ∧ (i 0).val < win0_9.index t (0 : Fin 2) * 128 + 128; omega
  | ⟨1, _⟩ => show win0_9.index t (1 : Fin 2) * 8192 ≤ (i 1).val ∧ (i 1).val < win0_9.index t (1 : Fin 2) * 8192 + 8192; omega

/-- THE RESULT ARRAY after the region. -/
theorem final (hr : InRange m) (c : Dev nD) : (dats m 0 c).arrAt 9 cfg0.N = G m c :=
  (dats m 0 c).arrAt_eq_of_cover 9 (G m c) (fun t _ => flushed_eq m hr c t) (cover)

end Cert.KernelIdeal.RunValue

end
-- ==== Proof.KernelRun.lean ====
/-
  The idealized kernel's run with its result named.

  Before the region @main reshapes the three [128, 65536, 1] arguments to [128, 65536]: the array the region finds at
  (a, p) is the argument at (a, p, 0). After the region it reshapes the result back: the program's result at (a, p, 0) is
  the region's result at (a, p). With the region's result known (RunValue), the program's result at (a, p, 0) is
  `Mixture.flowAt` of the arguments there, for index words in [0, 8); and the arguments end unchanged.
-/
import proofs.«406402_j8572754722980_1_alg».proof.Proof.RunValue
import Idealize.ShloMosaic.Lib.StableHlo.Run

set_option maxRecDepth 16384

noncomputable section

namespace Cert.KernelIdeal.RunResult

open Cert.KernelIdeal Cert.KernelIdeal.Gen Cert.KernelIdeal.RunValue
open Idealize.ShloMosaic Idealize.ShloMosaic.TcCoe Idealize.ShloMosaic.ValueIdx Idealize.ShloMosaic.StableHlo Cert.Mixture
open Idealize.SL.Sem
open Idealize.ShloMosaic.Pipeline (Dat)

variable (m : (ℓ : Loc nD τ sig) → Buf (Elt Ideal) ℓ) (ρ : Dev nD → PrngReg)

/-- Row-major positions agree: (a, p, 0) in [128, 65536, 1] and (a, p) in [128, 65536]. -/
theorem rowMajor_3_2 (a : Fin 128) (p : Fin 65536) :
    (S128x65536x1.rowMajor (ix3 a p (0 : Fin 1))).val = (S128x65536.rowMajor (ix2 a p)).val := by
  rw [Shape.rowMajor_val_three, Shape.rowMajor_val_two]
  show (a.val * 65536 + p.val) * 1 + 0 = a.val * 65536 + p.val
  omega

/-! ## The reshapes before the region -/

theorem mArr_apply (c : Dev nD) (a : Fin 128) (p : Fin 65536) :
    mArr m c (ix2 a p) = m ((c : Thread nD τ).loc main_arg0) (ix3 a p (0 : Fin 1)) := by
  have e : mArr m c = shapeCast S128x65536 (m ((c : Thread nD τ).loc main_arg0)) shapeCasts_S128x65536x1_S128x65536 := by
    show StableHlo.after hostOps0 (fun b => m (c, b)) (Proc.devRef .tc main_v0) = _
    after_results
    rfl
  rw [e]
  exact shapeCast_apply _ shapeCasts_S128x65536x1_S128x65536 (ix2 a p) (ix3 a p (0 : Fin 1)) (rowMajor_3_2 a p)

theorem sArr_apply (c : Dev nD) (a : Fin 128) (p : Fin 65536) :
    sArr m c (ix2 a p) = m ((c : Thread nD τ).loc main_arg1) (ix3 a p (0 : Fin 1)) := by
  have e : sArr m c = shapeCast S128x65536 (m ((c : Thread nD τ).loc main_arg1)) shapeCasts_S128x65536x1_S128x65536 := by
    show StableHlo.after hostOps0 (fun b => m (c, b)) (Proc.devRef .tc main_v1) = _
    after_results
    rfl
  rw [e]
  exact shapeCast_apply _ shapeCasts_S128x65536x1_S128x65536 (ix2 a p) (ix3 a p (0 : Fin 1)) (rowMajor_3_2 a p)

theorem oArr_apply (c : Dev nD) (a : Fin 128) (p : Fin 65536) :
    oArr m c (ix2 a p) = m ((c : Thread nD τ).loc main_arg2) (ix3 a p (0 : Fin 1)) := by
  have e : oArr m c = shapeCast S128x65536 (m ((c : Thread nD τ).loc main_arg2)) shapeCasts_S128x65536x1_S128x65536 := by
    show StableHlo.after hostOps0 (fun b => m (c, b)) (Proc.devRef .tc main_v2) = _
    after_results
    rfl
  rw [e]
  exact shapeCast_apply _ shapeCasts_S128x65536x1_S128x65536 (ix2 a p) (ix3 a p (0 : Fin 1)) (rowMajor_3_2 a p)

/-- The precondition's range of the index argument is the range of the index words the region finds. -/
theorem inRange_of (hr : ∀ (c : Dev nD) (i : S128x65536x1.Idx),
      0 ≤ (m ((c : Thread nD τ).loc main_arg0) i).toInt ∧ (m ((c : Thread nD τ).loc main_arg0) i).toInt < 8) : InRange m := by
  intro c i
  obtain ⟨a, p, rfl⟩ : ∃ (a : Fin 128) (p : Fin 65536), i = ix2 a p := ⟨i 0, i 1, eq_ix2 i⟩
  rw [mArr_apply]
  exact hr c _

/-! ## The result the program returns -/

/-- The program's result as one function of the argument arrays. -/
def result (c : Dev nD) : Vec Ideal S128x65536x1 .f32 := fun i =>
  flowAt (m ((c : Thread nD τ).loc main_arg0) i) (m ((c : Thread nD τ).loc main_arg1) i) (m ((c : Thread nD τ).loc main_arg2) i)
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The reshape after the region, over the region's result. -/
theorem tail_eq (c : Dev nD) :
    Pipeline.afterTail₀ cfgs (dats m) 0 (V0 m) [hostOps1] c main_v4
      = shapeCast S128x65536x1 ((dats m 0 c).arrAt 9 cfg0.N) shapeCasts_S128x65536_S128x65536x1 := by
  unfold Pipeline.afterTail₀
  show StableHlo.after hostOps1 _ (Proc.devRef .tc main_v4) = _
  after_results
  have h : Pipeline.withArrays (cfgs 0).spec c (V0 m c) (fun w => (dats m 0 c).arrAt w (cfgs 0).N) (Proc.devRef .tc main_v3)
      = (dats m 0 c).arrAt 9 cfg0.N := Pipeline.withArrays_arr spec0 launch0.win.arr_inj c _ _ 9
  rw [h]
  rfl

/-- THE PROGRAM'S RESULT, for index words in [0, 8). -/
theorem result_eq (hr : ∀ (c : Dev nD) (i : S128x65536x1.Idx),
      0 ≤ (m ((c : Thread nD τ).loc main_arg0) i).toInt ∧ (m ((c : Thread nD τ).loc main_arg0) i).toInt < 8) (c : Dev nD) :
    Pipeline.afterTail₀ cfgs (dats m) 0 (V0 m) [hostOps1] c main_v4 = result m c := by
  rw [tail_eq, final m (inRange_of m hr) c]
  funext i
  obtain ⟨a, p, z, rfl⟩ : ∃ (a : Fin 128) (p : Fin 65536) (z : Fin 1), i = ix3 a p z := ⟨i 0, i 1, i 2, eq_ix3 i⟩
  obtain rfl : z = 0 := Subsingleton.elim _ _
  rw [shapeCast_apply (G m c) shapeCasts_S128x65536_S128x65536x1 (ix3 a p (0 : Fin 1)) (ix2 a p) (rowMajor_3_2 a p).symm]
  unfold G result
  rw [mArr_apply, sArr_apply, oArr_apply]
  show flowAt _ _ _ (V m c main_arg3) (V m c main_arg4) (V m c main_arg5) (V m c main_arg6) (V m c main_arg7) (V m c main_arg8) = _
  rw [V_main_arg3, V_main_arg4, V_main_arg5, V_main_arg6, V_main_arg7, V_main_arg8]

/-- THE RUN: every weakly fair execution of the idealized kernel's @main ends with the result at `result` of the
    arguments and the arguments unchanged, for index words in [0, 8). -/
theorem run (hr : ∀ (c : Dev nD) (i : S128x65536x1.Idx),
      0 ≤ (m ((c : Thread nD τ).loc main_arg0) i).toInt ∧ (m ((c : Thread nD τ).loc main_arg0) i).toInt < 8) :
    θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v4 (Pipeline.mem_restRefs_of main_v4 (by decide) (by decide))).trans (result_eq m hr c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c)))⟩)
    (run_main m ρ)

end Cert.KernelIdeal.RunResult

end
-- ==== Proof.LibTakeLast.lean ====
/-
  A take along the last axis of a rank-3 array whose two leading axes are batching axes, read at an index, for any extents.

  The gather has operand [A, B, C] and start indices [A, B, 1, 1]: operand axes 0 and 1 are paired with start-index axes
  0 and 1, axis 2 is collapsed and is the one axis the start index addresses, the index vector lies on axis 3, every
  window has extent one and the result [A, B, 1] has no offset axis. So the result at (a, b, z) is the operand at
  (a, b, c), where c is the start index at (a, b, 0, 0) read as a signed integer and clamped into [0, C - 1].
-/
import Idealize.ShloMosaic.Lib.ValueIdx

noncomputable section

namespace Cert.LibTakeLast

open Idealize.ShloMosaic Idealize.ShloMosaic.ValueIdx

variable {α : Type}

/-- The dimension numbers of the take: no offset axis, operand axis 2 collapsed and start-indexed, axes 0 and 1 batching
    on both sides, the index vector on axis 3, windows [1, 1, 1]. -/
abbrev takeLastDims (A B C : Nat)
    (wf : GatherDims.WF ⟨3, ![A, B, C]⟩ ⟨4, ![A, B, 1, 1]⟩ ⟨3, ![A, B, 1]⟩ [] [2] [0, 1] [2] [0, 1] 3 ![1, 1, 1]) :
    GatherDims ⟨3, ![A, B, C]⟩ ⟨4, ![A, B, 1, 1]⟩ ⟨3, ![A, B, 1]⟩ where
  offsetDims := []
  collapsedSliceDims := [2]
  operandBatchingDims := [0, 1]
  startIndicesBatchingDims := [0, 1]
  startIndexMap := [2]
  indexVectorDim := 3
  sliceSizes := ![1, 1, 1]
  wf := wf

/-- THE TAKE READ AT (a, b, z): the operand at (a, b, c), c the start index at (a, b, 0, 0) read signed and clamped
    into [0, C - 1]. -/
theorem gather_takeLast_apply {A B C w : Nat} (hC : 0 < C)
    (wf : GatherDims.WF ⟨3, ![A, B, C]⟩ ⟨4, ![A, B, 1, 1]⟩ ⟨3, ![A, B, 1]⟩ [] [2] [0, 1] [2] [0, 1] 3 ![1, 1, 1])
    (x : (⟨3, ![A, B, C]⟩ : Shape).Idx → α) (idx : IVec ⟨4, ![A, B, 1, 1]⟩ w)
    (a : Fin A) (b : Fin B) (z : Fin 1) :
    Host.gather (takeLastDims A B C wf) x idx (ix3 a b z)
      = x (ix3 a b ⟨min (idx (ix4 a b (0 : Fin 1) (0 : Fin 1))).toInt.toNat (C - 1), by omega⟩) := by
  unfold Host.gather
  congr 1
  funext d
  refine Fin.ext ?_
  show (takeLastDims A B C wf).start (ix3 a b z) idx d + (takeLastDims A B C wf).batchCoord (ix3 a b z) d
      + (takeLastDims A B C wf).offCoord (ix3 a b z) d = _
  match d with
  | ⟨0, _⟩ =>
    -- a batching axis: no start, no offset, the result's coordinate on the paired axis
    show (takeLastDims A B C wf).start (ix3 a b z) idx (0 : Fin 3) + (takeLastDims A B C wf).batchCoord (ix3 a b z) (0 : Fin 3)
      + (takeLastDims A B C wf).offCoord (ix3 a b z) (0 : Fin 3) = a.val
    rw [GatherDims.start_batching _ _ _ _ (show (0 : Fin 3) ∈ ([0, 1] : List (Fin 3)) by decide),
      GatherDims.offCoord_eq_zero _ _ _ (fun h => ((GatherDims.mem_sKept _ _).mp h).2 (show (0 : Fin 3) ∈ ([0, 1] : List (Fin 3)) by decide))]
    simp only [Nat.zero_add, Nat.add_zero]
    rfl
  | ⟨1, _⟩ =>
    -- the other batching axis
    show (takeLastDims A B C wf).start (ix3 a b z) idx (1 : Fin 3) + (takeLastDims A B C wf).batchCoord (ix3 a b z) (1 : Fin 3)
      + (takeLastDims A B C wf).offCoord (ix3 a b z) (1 : Fin 3) = b.val
    rw [GatherDims.start_batching _ _ _ _ (show (1 : Fin 3) ∈ ([0, 1] : List (Fin 3)) by decide),
      GatherDims.offCoord_eq_zero _ _ _ (fun h => ((GatherDims.mem_sKept _ _).mp h).2 (show (1 : Fin 3) ∈ ([0, 1] : List (Fin 3)) by decide))]
    simp only [Nat.zero_add, Nat.add_zero]
    rfl
  | ⟨2, _⟩ =>
    -- the collapsed axis: the clamped start index
    show (takeLastDims A B C wf).start (ix3 a b z) idx (2 : Fin 3) + (takeLastDims A B C wf).batchCoord (ix3 a b z) (2 : Fin 3)
      + (takeLastDims A B C wf).offCoord (ix3 a b z) (2 : Fin 3) = min (idx (ix4 a b (0 : Fin 1) (0 : Fin 1))).toInt.toNat (C - 1)
    rw [GatherDims.batchCoord_eq_zero _ _ _ (show (2 : Fin 3) ∉ ([0, 1] : List (Fin 3)) by decide),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (takeLastDims A B C wf).startIndexMap from List.mem_singleton.mpr rfl)]
    have hsi : (takeLastDims A B C wf).siIdx (ix3 a b z) ⟨List.idxOf (2 : Fin 3) (takeLastDims A B C wf).startIndexMap,
        List.idxOf_lt_length_iff.2 (List.mem_singleton.mpr rfl)⟩ = ix4 a b (0 : Fin 1) (0 : Fin 1) := by
      funext c; refine Fin.ext ?_
      match c with
      | ⟨0, _⟩ => rfl
      | ⟨1, _⟩ => rfl
      | ⟨2, _⟩ => exact Nat.lt_one_iff.mp (Fin.isLt _)
      | ⟨3, _⟩ => rfl
    rw [hsi]
    rfl

/-- The same with the clamped start index named: when it is the coordinate `c`, the result is the operand at (a, b, c). -/
theorem gather_takeLast_apply_of_eq {A B C w : Nat}
    (wf : GatherDims.WF ⟨3, ![A, B, C]⟩ ⟨4, ![A, B, 1, 1]⟩ ⟨3, ![A, B, 1]⟩ [] [2] [0, 1] [2] [0, 1] 3 ![1, 1, 1])
    (x : (⟨3, ![A, B, C]⟩ : Shape).Idx → α) (idx : IVec ⟨4, ![A, B, 1, 1]⟩ w)
    (a : Fin A) (b : Fin B) (z : Fin 1) (c : Fin C)
    (hc : min (idx (ix4 a b (0 : Fin 1) (0 : Fin 1))).toInt.toNat (C - 1) = c.val) :
    Host.gather (takeLastDims A B C wf) x idx (ix3 a b z) = x (ix3 a b c) := by
  rw [gather_takeLast_apply (Fin.pos c) wf x idx a b z]
  exact congrArg (fun t => x (ix3 a b t)) (Fin.ext hc)

end Cert.LibTakeLast

end
-- ==== Proof.LibBatchGather.lean ====
/-
  Stages of a batched take-along-the-last-axis, and one-axis reductions, read at an index, for any extents.

  * A gather whose operand [B, N, C] and start indices [B, M, 1, 1] share the leading (batching) axis, whose window is
    a whole row of the middle axis and whose one start-index component addresses the last axis: the result
    [B, M, N, 1] at (b, i, j, 0) is the operand at (b, j, c), where c is the start index at (b, i, 0, 0) read as a
    signed integer and clamped into [0, C - 1].
  * A reduction with a commutative and associative body over a trailing axis of extent one: the body applied to the
    initial value and the one element.
  * A maximum-reduction over the last axis of a rank-3 array of extended reals: the fold of max over that axis; a
    minimum-reduction over its last or its middle axis: the fold of min over that axis.
-/
import Idealize.ShloMosaic.Lib.ValueIdx
import Idealize.ShloMosaic.PureOps.Reduce
import Idealize.ShloMosaic.PureOps.Ideal.Laws

noncomputable section

namespace Cert.LibBatchGather

open Idealize.ShloMosaic Idealize.ShloMosaic.ValueIdx

section Gather
variable {α : Type}

/-- The dimension numbers of the batched take: offset axis 2 of the result, operand axis 2 collapsed and
    start-indexed, axis 0 batching on both sides, the index vector on axis 3, windows [1, N, 1]. -/
abbrev batchTakeDims (B M N C : Nat)
    (wf : GatherDims.WF ⟨3, ![B, N, C]⟩ ⟨4, ![B, M, 1, 1]⟩ ⟨4, ![B, M, N, 1]⟩ [2] [2] [0] [2] [0] 3 ![1, N, 1]) :
    GatherDims ⟨3, ![B, N, C]⟩ ⟨4, ![B, M, 1, 1]⟩ ⟨4, ![B, M, N, 1]⟩ where
  offsetDims := [2]
  collapsedSliceDims := [2]
  operandBatchingDims := [0]
  startIndicesBatchingDims := [0]
  startIndexMap := [2]
  indexVectorDim := 3
  sliceSizes := ![1, N, 1]
  wf := wf

/-- THE BATCHED TAKE READ AT (b, i, j, 0): the operand at (b, j, c), c the start index at (b, i, 0, 0) read signed
    and clamped into [0, C - 1]. -/
theorem gather_batchTake_apply {B M N C w : Nat} (hC : 0 < C)
    (wf : GatherDims.WF ⟨3, ![B, N, C]⟩ ⟨4, ![B, M, 1, 1]⟩ ⟨4, ![B, M, N, 1]⟩ [2] [2] [0] [2] [0] 3 ![1, N, 1])
    (x : (⟨3, ![B, N, C]⟩ : Shape).Idx → α) (idx : IVec ⟨4, ![B, M, 1, 1]⟩ w)
    (b : Fin B) (i : Fin M) (j : Fin N) (z : Fin 1) :
    Host.gather (batchTakeDims B M N C wf) x idx (ix4 b i j z)
      = x (ix3 b j ⟨min (idx (ix4 b i (0 : Fin 1) (0 : Fin 1))).toInt.toNat (C - 1), by omega⟩) := by
  unfold Host.gather
  congr 1
  funext a
  refine Fin.ext ?_
  show (batchTakeDims B M N C wf).start (ix4 b i j z) idx a + (batchTakeDims B M N C wf).batchCoord (ix4 b i j z) a
      + (batchTakeDims B M N C wf).offCoord (ix4 b i j z) a = _
  match a with
  | ⟨0, _⟩ =>
    -- the batching axis: no start, no offset, the result's coordinate on the paired batch axis
    show (batchTakeDims B M N C wf).start (ix4 b i j z) idx (0 : Fin 3) + (batchTakeDims B M N C wf).batchCoord (ix4 b i j z) (0 : Fin 3)
      + (batchTakeDims B M N C wf).offCoord (ix4 b i j z) (0 : Fin 3) = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    -- the window axis: the result's offset coordinate
    show (batchTakeDims B M N C wf).start (ix4 b i j z) idx (1 : Fin 3) + (batchTakeDims B M N C wf).batchCoord (ix4 b i j z) (1 : Fin 3)
      + (batchTakeDims B M N C wf).offCoord (ix4 b i j z) (1 : Fin 3) = j.val
    rw [GatherDims.batchCoord_eq_zero _ _ _ (show (1 : Fin 3) ∉ ([0] : List (Fin 3)) by decide)]
    unfold GatherDims.start
    rw [dif_neg (show (1 : Fin 3) ∉ ([2] : List (Fin 3)) by decide)]
    simp only [Nat.zero_add, Nat.add_zero]
    rfl
  | ⟨2, _⟩ =>
    -- the collapsed axis: the clamped start index
    show (batchTakeDims B M N C wf).start (ix4 b i j z) idx (2 : Fin 3) + (batchTakeDims B M N C wf).batchCoord (ix4 b i j z) (2 : Fin 3)
      + (batchTakeDims B M N C wf).offCoord (ix4 b i j z) (2 : Fin 3) = min (idx (ix4 b i (0 : Fin 1) (0 : Fin 1))).toInt.toNat (C - 1)
    rw [GatherDims.batchCoord_eq_zero _ _ _ (show (2 : Fin 3) ∉ ([0] : List (Fin 3)) by decide),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (batchTakeDims B M N C wf).startIndexMap from List.mem_singleton.mpr rfl)]
    have hsi : (batchTakeDims B M N C wf).siIdx (ix4 b i j z) ⟨List.idxOf (2 : Fin 3) (batchTakeDims B M N C wf).startIndexMap,
        List.idxOf_lt_length_iff.2 (List.mem_singleton.mpr rfl)⟩ = ix4 b i (0 : Fin 1) (0 : Fin 1) := by
      funext c; refine Fin.ext ?_
      match c with
      | ⟨0, _⟩ => rfl
      | ⟨1, _⟩ => rfl
      | ⟨2, _⟩ => exact Nat.lt_one_iff.mp (Fin.isLt _)
      | ⟨3, _⟩ => rfl
    rw [hsi]
    rfl

/-- The same with the clamped start index named: when it is the coordinate `c`, the result is the operand at (b, j, c). -/
theorem gather_batchTake_apply_of_eq {B M N C w : Nat}
    (wf : GatherDims.WF ⟨3, ![B, N, C]⟩ ⟨4, ![B, M, 1, 1]⟩ ⟨4, ![B, M, N, 1]⟩ [2] [2] [0] [2] [0] 3 ![1, N, 1])
    (x : (⟨3, ![B, N, C]⟩ : Shape).Idx → α) (idx : IVec ⟨4, ![B, M, 1, 1]⟩ w)
    (b : Fin B) (i : Fin M) (j : Fin N) (z : Fin 1) (c : Fin C)
    (hc : min (idx (ix4 b i (0 : Fin 1) (0 : Fin 1))).toInt.toNat (C - 1) = c.val) :
    Host.gather (batchTakeDims B M N C wf) x idx (ix4 b i j z) = x (ix3 b j c) := by
  rw [gather_batchTake_apply (Fin.pos c) wf x idx b i j z]
  exact congrArg (fun t => x (ix3 b j t)) (Fin.ext hc)

end Gather

section Reduce
variable {α : Type}

/-- A fold over the one-element index set. -/
theorem fold_fin_one (f : α → α → α) [Std.Commutative f] [Std.Associative f] (e : α) (g : Fin 1 → α) :
    (Finset.univ : Finset (Fin 1)).fold f e g = f (g 0) e := by
  rw [Finset.univ_unique, Finset.fold_singleton]; rfl

/-- A reduction with a commutative and associative body over a trailing axis of extent one, read at (b, i, z): the
    body applied to the one element and the initial value. -/
theorem reduce_unit_last4 {B M : Nat} {u : Shape} (f : α → α → α) [Std.Commutative f] [Std.Associative f]
    (x : (⟨4, ![B, M, 1, 1]⟩ : Shape).Idx → α) (init : u.Idx → α)
    (h' : (⟨4, ![B, M, 1, 1]⟩ : Shape).ReducesTo [3] ⟨3, ![B, M, 1]⟩) (hu : 0 < u.numel)
    (b : Fin B) (i : Fin M) (z : Fin 1) :
    Host.reduce f x init h' hu (ix3 b i z) = f (x (ix4 b i (0 : Fin 1) (0 : Fin 1))) (init (Shape.Idx.first hu)) := by
  have h : (⟨4, ![B, M, 1, 1]⟩ : Shape).Reduces [3] ⟨3, ![B, M, 1]⟩ := ⟨h'.1, Nat.succ_pos 2, h'.2⟩
  rw [Host.reduce_eq_fold_single f x init h' h hu]
  refine (fold_fin_one f (init (Shape.Idx.first hu)) (fun k => x (h.lift (ix3 b i z) k))).trans ?_
  refine congrArg (fun t => f (x t) (init (Shape.Idx.first hu))) (funext fun c => Fin.ext ?_)
  match c with
  | ⟨0, _⟩ => rfl
  | ⟨1, _⟩ => rfl
  | ⟨2, _⟩ => exact Nat.lt_one_iff.mp z.isLt
  | ⟨3, _⟩ => rfl

/-- A maximum-reduction of extended reals over the last axis of a rank-3 array, read at (b, j): the fold of max,
    from the initial value, over that axis. -/
theorem reduce_max_last3 {B N C : Nat} {u : Shape} {φ : FTy} (x : FVec Ideal ⟨3, ![B, N, C]⟩ φ) (init : FVec Ideal u φ)
    (h' : (⟨3, ![B, N, C]⟩ : Shape).ReducesTo [2] ⟨2, ![B, N]⟩) (hu : 0 < u.numel) (b : Fin B) (j : Fin N) :
    Host.reduce (FloatOps.maximumf (F := Ideal) (φ := φ)) x init h' hu (ix2 b j)
      = (Finset.univ : Finset (Fin C)).fold max (init (Shape.Idx.first hu)) (fun k => x (ix3 b j k)) := by
  have h : (⟨3, ![B, N, C]⟩ : Shape).Reduces [2] ⟨2, ![B, N]⟩ := ⟨h'.1, Nat.succ_pos 1, h'.2⟩
  rw [Host.reduce_eq_fold_single _ x init h' h hu]
  show (Finset.univ : Finset (Fin C)).fold max (init (Shape.Idx.first hu)) (fun k => x (h.lift (ix2 b j) k)) = _
  refine congrArg (fun g => (Finset.univ : Finset (Fin C)).fold max (init (Shape.Idx.first hu)) g) (funext fun k => ?_)
  refine congrArg x (funext fun c => Fin.ext ?_)
  match c with
  | ⟨0, _⟩ => rfl
  | ⟨1, _⟩ => rfl
  | ⟨2, _⟩ => rfl

/-- A minimum-reduction of extended reals over the last axis of a rank-3 array, read at (b, i): the fold of min, from
    the initial value, over that axis. -/
theorem reduce_min_last3 {B M N : Nat} {u : Shape} {φ : FTy} (x : FVec Ideal ⟨3, ![B, M, N]⟩ φ) (init : FVec Ideal u φ)
    (h' : (⟨3, ![B, M, N]⟩ : Shape).ReducesTo [2] ⟨2, ![B, M]⟩) (hu : 0 < u.numel) (b : Fin B) (i : Fin M) :
    Host.reduce (FloatOps.minimumf (F := Ideal) (φ := φ)) x init h' hu (ix2 b i)
      = (Finset.univ : Finset (Fin N)).fold min (init (Shape.Idx.first hu)) (fun j => x (ix3 b i j)) := by
  have h : (⟨3, ![B, M, N]⟩ : Shape).Reduces [2] ⟨2, ![B, M]⟩ := ⟨h'.1, Nat.succ_pos 1, h'.2⟩
  rw [Host.reduce_eq_fold_single _ x init h' h hu]
  show (Finset.univ : Finset (Fin N)).fold min (init (Shape.Idx.first hu)) (fun j => x (h.lift (ix2 b i) j)) = _
  refine congrArg (fun g => (Finset.univ : Finset (Fin N)).fold min (init (Shape.Idx.first hu)) g) (funext fun j => ?_)
  refine congrArg x (funext fun c => Fin.ext ?_)
  match c with
  | ⟨0, _⟩ => rfl
  | ⟨1, _⟩ => rfl
  | ⟨2, _⟩ => rfl

/-- A minimum-reduction of extended reals over the MIDDLE axis of a rank-3 array, read at (b, j): the fold of min,
    from the initial value, over that axis. -/
theorem reduce_min_mid3 {B M N : Nat} {u : Shape} {φ : FTy} (x : FVec Ideal ⟨3, ![B, M, N]⟩ φ) (init : FVec Ideal u φ)
    (h' : (⟨3, ![B, M, N]⟩ : Shape).ReducesTo [1] ⟨2, ![B, N]⟩) (hu : 0 < u.numel) (b : Fin B) (j : Fin N) :
    Host.reduce (FloatOps.minimumf (F := Ideal) (φ := φ)) x init h' hu (ix2 b j)
      = (Finset.univ : Finset (Fin M)).fold min (init (Shape.Idx.first hu)) (fun i => x (ix3 b i j)) := by
  have h : (⟨3, ![B, M, N]⟩ : Shape).Reduces [1] ⟨2, ![B, N]⟩ := ⟨h'.1, Nat.succ_pos 1, h'.2⟩
  rw [Host.reduce_eq_fold_single _ x init h' h hu]
  show (Finset.univ : Finset (Fin M)).fold min (init (Shape.Idx.first hu)) (fun i => x (h.lift (ix2 b j) i)) = _
  refine congrArg (fun g => (Finset.univ : Finset (Fin M)).fold min (init (Shape.Idx.first hu)) g) (funext fun i => ?_)
  refine congrArg x (funext fun c => Fin.ext ?_)
  match c with
  | ⟨0, _⟩ => rfl
  | ⟨1, _⟩ => rfl
  | ⟨2, _⟩ => rfl

end Reduce

end Cert.LibBatchGather

end
-- ==== Proof.TakeAlong.lean ====
/-
  The reference's take of one component along the last axis, read at an index.

  jnp.take_along_axis lowers to: wrap a negative index word by adding the extent 8; gather, at each (b, p), the element
  of the [128, 65536, 8] operand that the wrapped word addresses on the last axis (clamped into [0, 7]); and replace the
  gathered element by a filler wherever the wrapped word lies outside [0, 7]. For an index word whose signed value
  already lies in [0, 8) nothing is wrapped, nothing is clamped and nothing is replaced: the result at (b, p, 0) is the
  operand at (b, p, n), n the word's signed value.
-/
import proofs.«406402_j8572754722980_1_alg».proof.ReferenceIdeal
import proofs.«406402_j8572754722980_1_alg».proof.Proof.Gen.ReferenceIdeal
import proofs.«406402_j8572754722980_1_alg».proof.Proof.LibTakeLast
import proofs.«406402_j8572754722980_1_alg».proof.Proof.LibBatchGather
import proofs.«406402_j8572754722980_1_alg».proof.Proof.Mixture
import Idealize.ShloMosaic.Lib.Pipeline.Value
import Idealize.ShloMosaic.Lib.Affine

noncomputable section

namespace Cert.ReferenceIdeal.TakeAlong

open Cert.ReferenceIdeal Cert.ReferenceIdeal.Gen Idealize.ShloMosaic Idealize.ShloMosaic.ValueIdx

variable {F : FTy → Type} [FloatOps F]

/-- The index words after numpy's wrap of the negative ones. -/
def wrapped (x0 : IVec S128x65536x1 32) : IVec S128x65536x1 32 :=
  select (cmpi .slt x0 (broadcastInDim S128x65536x1 ![] bcast_S_S128x65536x1 (constantI S_ 32 0#32)))
    (addi x0 (broadcastInDim S128x65536x1 ![] bcast_S_S128x65536x1 (constantI S_ 32 8#32))) x0

/-- The wrapped words as the gather's start indices. -/
def starts (x0 : IVec S128x65536x1 32) : IVec S128x65536x1x1 32 :=
  shapeCast _ (wrapped x0) shapeCasts_S128x65536x1_S128x65536x1x1

/-- Where the wrapped word lies in [0, 7]. -/
def inRange (x0 : IVec S128x65536x1 32) : IVec S128x65536x1 1 :=
  Host.reduce IntOp.andi
    (andi (cmpi .sge (starts x0) (broadcastInDim S128x65536x1x1 ![] bcast_S_S128x65536x1x1 (constantI S_ 32 0#32)))
      (cmpi .sle (starts x0) (broadcastInDim S128x65536x1x1 ![0, 1, 2, 3] bcast_S1x1x1x1_S128x65536x1x1_0_1_2_3
        (broadcastInDim S1x1x1x1 ![3] bcast_S1_S1x1x1x1_3 (constantI S1 32 7#32)))))
    (constantI S_ 1 1#1) reducesTo_S128x65536x1x1_S128x65536x1_d3 h_S_

/-- The take: the gathered element where the wrapped word is in range, the filler elsewhere. -/
def taken (y : FVec F S128x65536x8 .f32) (x0 : IVec S128x65536x1 32) : FVec F S128x65536x1 .f32 :=
  select (inRange x0)
    (Host.gather gather_S128x65536x8_S128x65536x1x1_S128x65536x1_n_2_01_01_2_3_111 y (starts x0))
    (broadcastInDim S128x65536x1 ![] bcast_S_S128x65536x1 (constant S_ .f32 0x7FC00000#32))

/-- A word that is not negative is not wrapped. -/
theorem wrapped_apply (x0 : IVec S128x65536x1 32) (i : S128x65536x1.Idx) (h0 : 0 ≤ (x0 i).toInt) : wrapped x0 i = x0 i := by
  show Scalar.select (IntOp.cmpi .slt (x0 i) (0#32)) _ (x0 i) = x0 i
  unfold Scalar.select
  rw [if_neg]
  intro h
  have := IntOp.cmpi_slt.1 h
  simp at this
  omega

/-- The start index at (a, b, 0, 0) is the wrapped word at (a, b, 0). -/
theorem starts_apply (x0 : IVec S128x65536x1 32) (a : Fin 128) (b : Fin 65536) :
    starts x0 (ix4 a b (0 : Fin 1) (0 : Fin 1)) = wrapped x0 (ix3 a b (0 : Fin 1)) := by
  unfold starts
  refine shapeCast_apply (wrapped x0) shapeCasts_S128x65536x1_S128x65536x1x1 (ix4 a b (0 : Fin 1) (0 : Fin 1)) (ix3 a b (0 : Fin 1)) ?_
  rw [Shape.rowMajor_val_three, Shape.rowMajor_val_four]
  show (a.val * 65536 + b.val) * 1 + 0 = ((a.val * 65536 + b.val) * 1 + 0) * 1 + 0
  omega

/-- THE TAKE READ AT (a, b, 0), for an index word in [0, 8): the operand at (a, b, n), n the component the word names. -/
theorem taken_apply (y : FVec F S128x65536x8 .f32) (x0 : IVec S128x65536x1 32) (a : Fin 128) (b : Fin 65536)
    (h0 : 0 ≤ (x0 (ix3 a b (0 : Fin 1))).toInt) (h8 : (x0 (ix3 a b (0 : Fin 1))).toInt < 8) :
    taken y x0 (ix3 a b (0 : Fin 1)) = y (ix3 a b (Cert.Mixture.comp (x0 (ix3 a b (0 : Fin 1))))) := by
  have hs : starts x0 (ix4 a b (0 : Fin 1) (0 : Fin 1)) = x0 (ix3 a b (0 : Fin 1)) :=
    (starts_apply x0 a b).trans (wrapped_apply x0 _ h0)
  -- the range test passes
  have hm : inRange x0 (ix3 a b (0 : Fin 1)) = 1#1 := by
    unfold inRange
    rw [Cert.LibBatchGather.reduce_unit_last4 IntOp.andi _ _ reducesTo_S128x65536x1x1_S128x65536x1_d3 h_S_ a b (0 : Fin 1)]
    show IntOp.andi (IntOp.andi (IntOp.cmpi .sge (starts x0 (ix4 a b (0 : Fin 1) (0 : Fin 1))) (0#32))
      (IntOp.cmpi .sle (starts x0 (ix4 a b (0 : Fin 1) (0 : Fin 1))) (7#32))) (1#1) = 1#1
    rw [hs]
    have g : IntOp.cmpi .sge (x0 (ix3 a b (0 : Fin 1))) (0#32) = 1#1 := IntOp.cmpi_sge.2 (by simpa using h0)
    have l : IntOp.cmpi .sle (x0 (ix3 a b (0 : Fin 1))) (7#32) = 1#1 := IntOp.cmpi_sle.2 (by
      have : (7#32 : BitVec 32).toInt = 7 := by decide
      rw [this]; omega)
    rw [g, l]
    decide
  -- the gathered element
  have hg : Host.gather gather_S128x65536x8_S128x65536x1x1_S128x65536x1_n_2_01_01_2_3_111 y (starts x0) (ix3 a b (0 : Fin 1))
      = y (ix3 a b (Cert.Mixture.comp (x0 (ix3 a b (0 : Fin 1))))) :=
    Cert.LibTakeLast.gather_takeLast_apply_of_eq (A := 128) (B := 65536) (C := 8)
      gather_S128x65536x8_S128x65536x1x1_S128x65536x1_n_2_01_01_2_3_111_wf y (starts x0) a b (0 : Fin 1)
      (Cert.Mixture.comp (x0 (ix3 a b (0 : Fin 1)))) (by rw [hs]; rfl)
  have e : taken y x0 (ix3 a b (0 : Fin 1)) = Scalar.select (inRange x0 (ix3 a b (0 : Fin 1)))
      (Host.gather gather_S128x65536x8_S128x65536x1x1_S128x65536x1_n_2_01_01_2_3_111 y (starts x0) (ix3 a b (0 : Fin 1)))
      (broadcastInDim S128x65536x1 ![] bcast_S_S128x65536x1 (constant (F := F) S_ .f32 0x7FC00000#32) (ix3 a b (0 : Fin 1))) := rfl
  rw [e, hm, hg]
  unfold Scalar.select
  exact if_pos rfl

end Cert.ReferenceIdeal.TakeAlong

end
-- ==== Proof.RefValue.lean ====
/-
  The reference's result at an element, for an index word in [0, 8).

  Each layer is relu (einsum "bpd,nd->bpn" o W + b): at (b, p, n) the contraction runs over the one feature d = 0, so the
  element is max (o[b, p, 0] · W[n, 0] + b[n], 0). The take along the last axis picks component n = the index word
  (TakeAlong). The closing sum over the unit last axis adds one term to the zero it starts from. So the reference's result
  at (b, p, 0) is s + u · tanh (w · s + b) with w, u, b the word's components of the three layers: `Mixture.flowAt`.
-/
import proofs.«406402_j8572754722980_1_alg».proof.Proof.RefRead
import proofs.«406402_j8572754722980_1_alg».proof.Proof.TakeAlong
import proofs.«406402_j8572754722980_1_alg».proof.Proof.Mixture

noncomputable section

namespace Cert.ReferenceIdeal.RefValue

open Cert.ReferenceIdeal Cert.ReferenceIdeal.Gen Cert.ReferenceIdeal.RefRead Cert.ReferenceIdeal.TakeAlong
open Idealize.ShloMosaic Idealize.ShloMosaic.ValueIdx Cert.Mixture

/-- One layer read at (a, b, n): the rectified affine map of the observation at (a, b, 0) with column entry W[n, 0] and
    bias b[n]; the contraction is over the one feature. -/
theorem layer_apply (x2 : (⟨S128x65536x1, .f32⟩ : BufTy).Contents (Elt Ideal)) (xw : (⟨S8x1, .f32⟩ : BufTy).Contents (Elt Ideal))
    (xb : (⟨S8, .f32⟩ : BufTy).Contents (Elt Ideal)) (a : Fin 128) (b : Fin 65536) (n : Fin 8) :
    val_main_v4 (F := Ideal) x2 xw xb (ix3 a b n) = relu (x2 (ix3 a b (0 : Fin 1))) (xw (ix2 n (0 : Fin 1))) (xb (ix1 n)) := by
  have el : lidx_main_v0 (ix3 a b n) (0 : Fin 1) = ix3 a b (0 : Fin 1) :=
    funext fun d => Fin.ext (by match d with | ⟨0, _⟩ => rfl | ⟨1, _⟩ => rfl | ⟨2, _⟩ => rfl)
  have er : ridx_main_v0 (ix3 a b n) (0 : Fin 1) = ix2 n (0 : Fin 1) :=
    funext fun d => Fin.ext (by match d with | ⟨0, _⟩ => rfl | ⟨1, _⟩ => rfl)
  have eb : idx_main_v1 (idx_main_v2 (ix3 a b n)) = ix1 n :=
    funext fun d => Fin.ext (by match d with | ⟨0, _⟩ => rfl)
  rw [val_main_v4_apply, val_main_v3_apply, val_main_v0_apply, val_main_v2_apply, val_main_v1_apply, val_main_call0_v0_apply,
    val_main_call0_cst_apply, Fin.sum_univ_one, el, er, eb]
  rfl

/-- Each of the three calls of the take is the take of its layer at the index words; the three layers are one function
    of the observation and of their own weights and biases. -/
theorem take1_eq (x0 : (⟨S128x65536x1, .i32⟩ : BufTy).Contents (Elt Ideal)) (x2 : (⟨S128x65536x1, .f32⟩ : BufTy).Contents (Elt Ideal))
    (xw : (⟨S8x1, .f32⟩ : BufTy).Contents (Elt Ideal)) (xb : (⟨S8, .f32⟩ : BufTy).Contents (Elt Ideal)) :
    val_main_v15 (F := Ideal) x0 x2 xw xb = taken (F := Ideal) (val_main_v4 (F := Ideal) x2 xw xb) x0 := rfl
theorem take2_eq (x0 : (⟨S128x65536x1, .i32⟩ : BufTy).Contents (Elt Ideal)) (x2 : (⟨S128x65536x1, .f32⟩ : BufTy).Contents (Elt Ideal))
    (xw : (⟨S8x1, .f32⟩ : BufTy).Contents (Elt Ideal)) (xb : (⟨S8, .f32⟩ : BufTy).Contents (Elt Ideal)) :
    val_main_v16 (F := Ideal) x0 x2 xw xb = taken (F := Ideal) (val_main_v4 (F := Ideal) x2 xw xb) x0 := rfl
theorem take3_eq (x0 : (⟨S128x65536x1, .i32⟩ : BufTy).Contents (Elt Ideal)) (x2 : (⟨S128x65536x1, .f32⟩ : BufTy).Contents (Elt Ideal))
    (xw : (⟨S8x1, .f32⟩ : BufTy).Contents (Elt Ideal)) (xb : (⟨S8, .f32⟩ : BufTy).Contents (Elt Ideal)) :
    val_main_v17 (F := Ideal) x0 x2 xw xb = taken (F := Ideal) (val_main_v4 (F := Ideal) x2 xw xb) x0 := rfl

/-- A chosen component read at (a, b, 0): the layer's component the index word names. -/
theorem chosen_apply (x0 : (⟨S128x65536x1, .i32⟩ : BufTy).Contents (Elt Ideal)) (x2 : (⟨S128x65536x1, .f32⟩ : BufTy).Contents (Elt Ideal))
    (xw : (⟨S8x1, .f32⟩ : BufTy).Contents (Elt Ideal)) (xb : (⟨S8, .f32⟩ : BufTy).Contents (Elt Ideal)) (a : Fin 128) (b : Fin 65536)
    (h0 : 0 ≤ (x0 (ix3 a b (0 : Fin 1))).toInt) (h8 : (x0 (ix3 a b (0 : Fin 1))).toInt < 8) :
    taken (F := Ideal) (val_main_v4 (F := Ideal) x2 xw xb) x0 (ix3 a b (0 : Fin 1))
      = relu (x2 (ix3 a b (0 : Fin 1))) (xw (ix2 (comp (x0 (ix3 a b (0 : Fin 1)))) (0 : Fin 1))) (xb (ix1 (comp (x0 (ix3 a b (0 : Fin 1)))))) := by
  rw [taken_apply _ x0 a b h0 h8, layer_apply]

/-- THE REFERENCE'S RESULT AT (a, b, 0), for an index word in [0, 8): the planar transform with the word's components. -/
theorem result_apply (x0 : (⟨S128x65536x1, .i32⟩ : BufTy).Contents (Elt Ideal)) (x1 x2 : (⟨S128x65536x1, .f32⟩ : BufTy).Contents (Elt Ideal))
    (x3 : (⟨S8x1, .f32⟩ : BufTy).Contents (Elt Ideal)) (x4 : (⟨S8, .f32⟩ : BufTy).Contents (Elt Ideal))
    (x5 : (⟨S8x1, .f32⟩ : BufTy).Contents (Elt Ideal)) (x6 : (⟨S8, .f32⟩ : BufTy).Contents (Elt Ideal))
    (x7 : (⟨S8x1, .f32⟩ : BufTy).Contents (Elt Ideal)) (x8 : (⟨S8, .f32⟩ : BufTy).Contents (Elt Ideal)) (a : Fin 128) (b : Fin 65536)
    (h0 : 0 ≤ (x0 (ix3 a b (0 : Fin 1))).toInt) (h8 : (x0 (ix3 a b (0 : Fin 1))).toInt < 8) :
    val_main_v24 (F := Ideal) x0 x1 x2 x3 x4 x5 x6 x7 x8 (ix3 a b (0 : Fin 1))
      = flowAt (x0 (ix3 a b (0 : Fin 1))) (x1 (ix3 a b (0 : Fin 1))) (x2 (ix3 a b (0 : Fin 1))) x3 x4 x5 x6 x7 x8 := by
  have e19 : idx_main_v19 (idx_main_v20 (ix3 a b (0 : Fin 1))) (0 : Fin 1) = ix3 a b (0 : Fin 1) :=
    funext fun d => Fin.ext (by match d with | ⟨0, _⟩ => rfl | ⟨1, _⟩ => rfl | ⟨2, _⟩ => rfl)
  rw [val_main_v24_apply, val_main_v23_apply, val_main_v22_apply, val_main_v21_apply, val_main_v20_apply, val_main_v19_apply,
    val_main_cst_apply, Fin.sum_univ_one, e19, val_main_v18_apply, take1_eq, take2_eq, take3_eq,
    chosen_apply x0 x2 x3 x4 a b h0 h8, chosen_apply x0 x2 x5 x6 a b h0 h8, chosen_apply x0 x2 x7 x8 a b h0 h8]
  simp only [flowAt, Ideal.addf_def, Ideal.mulf_def, Ideal.hostUnary_tanh_def, Ideal.ofBits_def, Ideal.ofBits_zero_f32, zero_add]

end Cert.ReferenceIdeal.RefValue

end
-- ==== Proof.lean ====
/-
  A mixture of planar flows: the kernel against its jnp reference, over the extended reals.

  Inputs: index words m : i32[128, 65536, 1], states s and observations o : f32[128, 65536, 1], and three small layers
  (W1, b1), (W2, b2), (W3, b3) with W : f32[8, 1], b : f32[8]. For each (batch, particle) both programs form, for every
  component n < 8 and every layer, the rectified affine map max (o · W[n, 0] + b[n], 0); they pick the component n = m and
  return s + u · tanh (w · s + b), with w, u, b the picked components of layers 1, 2, 3.

  The reference picks by jnp.take_along_axis, the kernel by eight nested selections on "m = n". The two agree exactly
  when m is a valid component index: for a negative m the reference wraps (numpy indexing) and for m ≥ 8 it fills with a
  NaN, while the kernel's selections all fail and it returns s. So the precondition says, beside the finiteness of the
  float inputs, that every index word lies in [0, 8): the range of the axis it indexes. Under it:
    * the reference's result at (b, p, 0) is `Mixture.flowAt` of the inputs there (RefValue, over TakeAlong);
    * the kernel's stored block element is the same function (BodyValue), its blocks tile the [128, 65536] result
      (RunValue), and the reshapes around the call read it back at (b, p, 0) (KernelRun).
  No algebraic law is needed: both sides compute the same expression, operation by operation, so the finiteness of the
  float inputs is never used; only the range of m is (IndexRange).

  The three frames: the two kernel programs' are the generated class-A frames; the reference's is its run with the
  result dropped. The idealization rewrote nothing, so `preserves` is trivial.
-/
import proofs.«406402_j8572754722980_1_alg».proof.Defs
import proofs.«406402_j8572754722980_1_alg».proof.Proof.Gen.Kernel
import proofs.«406402_j8572754722980_1_alg».proof.Proof.Gen.Kernel.Skeleton
import proofs.«406402_j8572754722980_1_alg».proof.Proof.Gen.Kernel.Launch
import proofs.«406402_j8572754722980_1_alg».proof.Proof.Gen.Kernel.Points
import proofs.«406402_j8572754722980_1_alg».proof.Proof.Gen.Kernel.Frame
import proofs.«406402_j8572754722980_1_alg».proof.Proof.Gen.KernelIdeal
import proofs.«406402_j8572754722980_1_alg».proof.Proof.Gen.KernelIdeal.Skeleton
import proofs.«406402_j8572754722980_1_alg».proof.Proof.Gen.KernelIdeal.Launch
import proofs.«406402_j8572754722980_1_alg».proof.Proof.Gen.KernelIdeal.Points
import proofs.«406402_j8572754722980_1_alg».proof.Proof.Gen.KernelIdeal.Frame
import proofs.«406402_j8572754722980_1_alg».proof.Proof.Gen.ReferenceIdeal
import proofs.«406402_j8572754722980_1_alg».proof.Proof.Gen.Pre_finite_inputs
import proofs.«406402_j8572754722980_1_alg».proof.Proof.IndexRange
import proofs.«406402_j8572754722980_1_alg».proof.Proof.KernelRun
import proofs.«406402_j8572754722980_1_alg».proof.Proof.RefValue
import Idealize.ShloMosaic.Adequacy
import Idealize.ShloMosaic.Init

set_option maxRecDepth 16384

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both programs end, from memories agreeing on the arguments, with the result at `flowAt` of the arguments, element
    by element: the kernel by its run read back, the reference by its stages read at an index. -/
theorem algebraic : Cert.algebraic_KernelIdeal_ReferenceIdeal := by
  intro m ρ m' ρ' hpre hagree
  have hr : ∀ (c : Dev Cert.KernelIdeal.nD) (i : Cert.KernelIdeal.S128x65536x1.Idx),
      0 ≤ (m ((c.tc : Thread Cert.KernelIdeal.nD Cert.KernelIdeal.τ).loc Cert.KernelIdeal.main_arg0) i).toInt ∧ (m ((c.tc : Thread Cert.KernelIdeal.nD Cert.KernelIdeal.τ).loc Cert.KernelIdeal.main_arg0) i).toInt < 8 :=
    fun c i => Cert.IndexRange.signed_range (F := Ideal) _ _ _ _ _ _ _ _ _ (hpre c) i
  refine ⟨fun c => Cert.KernelIdeal.RunResult.result m c, Cert.KernelIdeal.RunResult.run m ρ hr, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7, e8⟩ := hagree c
  rw [Cert.ReferenceIdeal.RefRead.val_main_v24_eq, e0, e1, e2, e3, e4, e5, e6, e7, e8]
  funext i
  obtain ⟨a, p, z, rfl⟩ : ∃ (a : Fin 128) (p : Fin 65536) (z : Fin 1), i = ix3 a p z := ⟨i 0, i 1, i 2, eq_ix3 i⟩
  obtain rfl : z = 0 := Subsingleton.elim _ _
  rw [Cert.ReferenceIdeal.RefValue.result_apply _ _ _ _ _ _ _ _ _ a p (hr c _).1 (hr c _).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
